-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S128x256 : Shape := ⟨2, ![128, 256]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x256 .f32) (main_arg1 : IVec S2x800000 32) (main_arg2 : FVec F S800000 .f32) (main_arg3 : FVec F S128x256 .f32) (main_arg4 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x256 : Shape := ⟨2, ![50000, 256]⟩
abbrev S2x800000 : Shape := ⟨2, ![2, 800000]⟩
abbrev S800000 : Shape := ⟨1, ![800000]⟩
abbrev S128x256 : Shape := ⟨2, ![128, 256]⟩
abbrev S128 : Shape := ⟨1, ![128]⟩
abbrev S6250x128 : Shape := ⟨2, ![6250, 128]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S256x128 : Shape := ⟨2, ![256, 128]⟩
abbrev S1x128 : Shape := ⟨2, ![1, 128]⟩
abbrev S50000x128 : Shape := ⟨2, ![50000, 128]⟩
abbrev S5000x256 : Shape := ⟨2, ![5000, 256]⟩
abbrev S5000x128 : Shape := ⟨2, ![5000, 128]⟩

abbrev nBuf : Space → Nat
  | .hbm => 84
  | .vmem => 8
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S128x256, .f32⟩
  | .hbm, ⟨4, _⟩ => ⟨S128, .f32⟩
  | .hbm, ⟨5, _⟩ => ⟨S6250x128, .f32⟩
  | .hbm, ⟨6, _⟩ => ⟨S6250x128, .f32⟩
  | .hbm, ⟨7, _⟩ => ⟨S800000, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S50000, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x256, .f32⟩
  | .hbm, ⟨58, _⟩ => ⟨S850000x1, .f32⟩
  | .hbm, ⟨59, _⟩ => ⟨S850000x256, .f32⟩
  | .hbm, ⟨60, _⟩ => ⟨S850000x256, .f32⟩
  | .hbm, ⟨61, _⟩ => ⟨S_, .f32⟩
  | .hbm, ⟨62, _⟩ => ⟨S50000x256, .f32⟩
  | .hbm, ⟨63, _⟩ => ⟨S850000x1, .i32⟩
  | .hbm, ⟨64, _⟩ => ⟨S50000x256, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S850000x256, .f32⟩
  | .hbm, ⟨74, _⟩ => ⟨S850000x1, .f32⟩
  | .hbm, ⟨75, _⟩ => ⟨S850000x256, .f32⟩
  | .hbm, ⟨76, _⟩ => ⟨S850000x256, .f32⟩
  | .hbm, ⟨77, _⟩ => ⟨S_, .f32⟩
  | .hbm, ⟨78, _⟩ => ⟨S50000x256, .f32⟩
  | .hbm, ⟨79, _⟩ => ⟨S850000x1, .i32⟩
  | .hbm, ⟨80, _⟩ => ⟨S50000x256, .f32⟩
  | .hbm, ⟨81, _⟩ => ⟨S256x128, .f32⟩
  | .hbm, ⟨82, _⟩ => ⟨S1x128, .f32⟩
  | .hbm, ⟨83, _⟩ => ⟨S50000x128, .f32⟩
  | .local _ .vmem, ⟨0, _⟩ => ⟨S6250x128, .f32⟩
  | .local _ .vmem, ⟨1, _⟩ => ⟨S6250x128, .f32⟩
  | .local _ .vmem, ⟨2, _⟩ => ⟨S5000x256, .f32⟩
  | .local _ .vmem, ⟨3, _⟩ => ⟨S5000x256, .f32⟩
  | .local _ .vmem, ⟨4, _⟩ => ⟨S256x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_call0_v0 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_c_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_11 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg3_1 : Ref sig .tc := ⟨.vmem, 7, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem3_0 : DmaSem sig := 6
abbrev cc1_sem3_1 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S6250x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S6250x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S800000_S6250x128 : S800000.ShapeCasts S6250x128
  inb_S6250x128_S6250x128_0_0 : ∀ a, (![0, 0] : Fin 2 → Nat) a + S6250x128.size a ≤ S6250x128.size a
  h_S6250x128 : 0 < S6250x128.numel
  shapeCasts_S6250x128_S6250x128 : S6250x128.ShapeCasts S6250x128
  shapeCasts_S6250x128_S800000 : S6250x128.ShapeCasts S800000
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  transposes_S128x256_S256x128_1_0 : S128x256.Transposes [1, 0] S256x128
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S6250x128.size a ≤ S6250x128.size a
  hwx0_0 : ∀ i : grid0.Coords, EltTy.bits .f32 = 32 ∨ (Rect.block (s := S6250x128) S6250x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6250x128.size a ≤ S6250x128.size a
  hwx0_1 : ∀ i : grid0.Coords, EltTy.bits .f32 = 32 ∨ (Rect.block (s := S6250x128) S6250x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v0) S6250x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S6250x128.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v60) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v61) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v62) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v63) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S128x256 : Shape := ⟨2, ![128, 256]⟩
abbrev S128 : Shape := ⟨1, ![128]⟩
abbrev S_ : Shape := ⟨0, ![]⟩
abbrev S50000 : Shape := ⟨1, ![50000]⟩
abbrev S1x800000 : Shape := ⟨2, ![1, 800000]⟩
abbrev S850000 : Shape := ⟨1, ![850000]⟩
abbrev S850000x1 : Shape := ⟨2, ![850000, 1]⟩
abbrev S850000x256 : Shape := ⟨2, ![850000, 256]⟩
abbrev S256x128 : Shape := ⟨2, ![256, 128]⟩
abbrev S50000x128 : Shape := ⟨2, ![50000, 128]⟩
abbrev S1x128 : Shape := ⟨2, ![1, 128]⟩

abbrev nBuf : Space → Nat
  | .hbm => 104
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S128x256, .f32⟩
  | .hbm, ⟨4, _⟩ => ⟨S128, .f32⟩
  | .hbm, ⟨5, _⟩ => ⟨S_, .f32⟩
  | .hbm, ⟨6, _⟩ => ⟨S800000, .f32⟩
  | .hbm, ⟨7, _⟩ => ⟨S800000, .i1⟩
  | .hbm, ⟨8, _⟩ => ⟨S_, .f32⟩
  | .hbm, ⟨9, _⟩ => ⟨S800000, .f32⟩
  | .hbm, ⟨10, _⟩ => ⟨S800000, .i1⟩
  | .hbm, ⟨11, _⟩ => ⟨S_, .f32⟩
  | .hbm, ⟨12, _⟩ => ⟨S_, .f32⟩
  | .hbm, ⟨13, _⟩ => ⟨S800000, .f32⟩
  | .hbm, ⟨14, _⟩ => ⟨S800000, .f32⟩
  | .hbm, ⟨15, _⟩ => ⟨S800000, .f32⟩
  | .hbm, ⟨16, _⟩ => ⟨S_, .f32⟩
  | .hbm, ⟨17, _⟩ => ⟨S800000, .f32⟩
  | .hbm, ⟨18, _⟩ => ⟨S800000, .f32⟩
  | .hbm, ⟨19, _⟩ => ⟨S800000, .f32⟩
  | .hbm, ⟨20, _⟩ => ⟨S_, .f32⟩
  | .hbm, ⟨21, _⟩ => ⟨S800000, .f32⟩
  | .hbm, ⟨22, _⟩ => ⟨S800000, .i1⟩
  | .hbm, ⟨23, _⟩ => ⟨S_, .f32⟩
  | .hbm, ⟨24, _⟩ => ⟨S800000, .f32⟩
  | .hbm, ⟨25, _⟩ => ⟨S800000, .f32⟩
  | .hbm, ⟨26, _⟩ => ⟨S50000, .i32⟩
  | .hbm, ⟨27, _⟩ => ⟨S1x800000, .i32⟩
  | .hbm, ⟨28, _⟩ => ⟨S800000, .i32⟩
  | .hbm, ⟨29, _⟩ => ⟨S850000, .i32⟩
  | .hbm, ⟨30, _⟩ => ⟨S1x800000, .i32⟩
  | .hbm, ⟨31, _⟩ => ⟨S800000, .i32⟩
  | .hbm, ⟨32, _⟩ => ⟨S850000, .i32⟩
  | .hbm, ⟨33, _⟩ => ⟨S_, .f32⟩
  | .hbm, ⟨34, _⟩ => ⟨S50000, .f32⟩
  | .hbm, ⟨35, _⟩ => ⟨S850000, .f32⟩
  | .hbm, ⟨36, _⟩ => ⟨S_, .f32⟩
  | .hbm, ⟨37, _⟩ => ⟨S50000, .f32⟩
  | .hbm, ⟨38, _⟩ => ⟨S850000x1, .i32⟩
  | .hbm, ⟨39, _⟩ => ⟨S50000, .f32⟩
  | .hbm, ⟨40, _⟩ => ⟨S_, .f32⟩
  | .hbm, ⟨41, _⟩ => ⟨S50000, .f32⟩
  | .hbm, ⟨42, _⟩ => ⟨S50000, .i1⟩
  | .hbm, ⟨43, _⟩ => ⟨S50000, .f32⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000, .f32⟩
  | .hbm, ⟨56, _⟩ => ⟨S850000, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000, .f32⟩
  | .hbm, ⟨66, _⟩ => ⟨S850000, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x256, .f32⟩
  | .hbm, ⟨76, _⟩ => ⟨S850000x1, .f32⟩
  | .hbm, ⟨77, _⟩ => ⟨S850000x256, .f32⟩
  | .hbm, ⟨78, _⟩ => ⟨S850000x256, .f32⟩
  | .hbm, ⟨79, _⟩ => ⟨S_, .f32⟩
  | .hbm, ⟨80, _⟩ => ⟨S50000x256, .f32⟩
  | .hbm, ⟨81, _⟩ => ⟨S850000x1, .i32⟩
  | .hbm, ⟨82, _⟩ => ⟨S50000x256, .f32⟩
  | .hbm, ⟨83, _⟩ => ⟨S_, .i32⟩
  | .hbm, ⟨84, _⟩ => ⟨S850000, .i32⟩
  | .hbm, ⟨85, _⟩ => ⟨S850000, .i1⟩
  | .hbm, ⟨86, _⟩ => ⟨S_, .i32⟩
  | .hbm, ⟨87, _⟩ => ⟨S850000, .i32⟩
  | .hbm, ⟨88, _⟩ => ⟨S850000, .i32⟩
  | .hbm, ⟨89, _⟩ => ⟨S850000, .i32⟩
  | .hbm, ⟨90, _⟩ => ⟨S850000x1, .i32⟩
  | .hbm, ⟨91, _⟩ => ⟨S850000x256, .f32⟩
  | .hbm, ⟨92, _⟩ => ⟨S850000x1, .f32⟩
  | .hbm, ⟨93, _⟩ => ⟨S850000x256, .f32⟩
  | .hbm, ⟨94, _⟩ => ⟨S850000x256, .f32⟩
  | .hbm, ⟨95, _⟩ => ⟨S_, .f32⟩
  | .hbm, ⟨96, _⟩ => ⟨S50000x256, .f32⟩
  | .hbm, ⟨97, _⟩ => ⟨S850000x1, .i32⟩
  | .hbm, ⟨98, _⟩ => ⟨S50000x256, .f32⟩
  | .hbm, ⟨99, _⟩ => ⟨S256x128, .f32⟩
  | .hbm, ⟨100, _⟩ => ⟨S50000x128, .f32⟩
  | .hbm, ⟨101, _⟩ => ⟨S1x128, .f32⟩
  | .hbm, ⟨102, _⟩ => ⟨S50000x128, .f32⟩
  | .hbm, ⟨103, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_cst_0 : Ref sig .tc := ⟨.hbm, 8, rfl⟩
abbrev main_call0_v2 : Ref sig .tc := ⟨.hbm, 9, rfl⟩
abbrev main_call0_v3 : Ref sig .tc := ⟨.hbm, 10, rfl⟩
abbrev main_call0_cst_1 : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_v4 : Ref sig .tc := ⟨.hbm, 14, rfl⟩
abbrev main_call0_v5 : Ref sig .tc := ⟨.hbm, 15, rfl⟩
abbrev main_call0_cst_2 : Ref sig .tc := ⟨.hbm, 16, rfl⟩
abbrev main_call0_v6 : Ref sig .tc := ⟨.hbm, 17, rfl⟩
abbrev main_call0_v7 : Ref sig .tc := ⟨.hbm, 18, rfl⟩
abbrev main_v0 : Ref sig .tc := ⟨.hbm, 19, rfl⟩
abbrev main_cst : Ref sig .tc := ⟨.hbm, 20, rfl⟩
abbrev main_v1 : Ref sig .tc := ⟨.hbm, 21, rfl⟩
abbrev main_v2 : Ref sig .tc := ⟨.hbm, 22, rfl⟩
abbrev main_cst_0 : Ref sig .tc := ⟨.hbm, 23, rfl⟩
abbrev main_call1_v0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_cst_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_3 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_4 : Ref sig .tc := ⟨.hbm, 44, rfl⟩
abbrev main_call2_v0 : Ref sig .tc := ⟨.hbm, 45, rfl⟩
abbrev main_v19 : Ref sig .tc := ⟨.hbm, 46, rfl⟩
abbrev main_c : Ref sig .tc := ⟨.hbm, 47, rfl⟩
abbrev main_v20 : Ref sig .tc := ⟨.hbm, 48, rfl⟩
abbrev main_v21 : Ref sig .tc := ⟨.hbm, 49, rfl⟩
abbrev main_c_5 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_6 : Ref sig .tc := ⟨.hbm, 57, rfl⟩
abbrev main_v28 : Ref sig .tc := ⟨.hbm, 58, rfl⟩
abbrev main_v29 : Ref sig .tc := ⟨.hbm, 59, rfl⟩
abbrev main_c_7 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_8 : Ref sig .tc := ⟨.hbm, 67, rfl⟩
abbrev main_v36 : Ref sig .tc := ⟨.hbm, 68, rfl⟩
abbrev main_v37 : Ref sig .tc := ⟨.hbm, 69, rfl⟩
abbrev main_c_9 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_10 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_c_11 : Ref sig .tc := ⟨.hbm, 83, rfl⟩
abbrev main_v49 : Ref sig .tc := ⟨.hbm, 84, rfl⟩
abbrev main_v50 : Ref sig .tc := ⟨.hbm, 85, rfl⟩
abbrev main_c_12 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_13 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  The mathematics both programs compute, stated once over the float instance `F`; no program is imported.

  A graph of 50000 nodes with 800000 weighted edges (sources in row 0 of `ei`, targets in row 1) gets one self loop
  of weight 1 per node. The edge weights are first CLAMPED: a weight that is not positive is replaced by the constant
  `c = f32 1e-7`. With `deg` the sum of the weights arriving at each node (a scatter-add over the targets),
  `dis = deg^(-1/2)` where `deg > 0` and `0` elsewhere, every edge `e` carries the coefficient
  `nrm e = dis (src e) · w e · dis (dst e)`, and one propagation step sends a feature matrix `h` to the scatter-add, at
  the targets, of the rows `h (src e) · nrm e`. Two steps are taken from `x`, and the result is projected:
  `out i j = ∑ k, h i k · Wᵀ k j + b j`.

  The two programs differ in two places only: HOW THE CLAMP IS DECIDED (`clampPos`: by the sign of the weight itself;
  `clampElu`: by the sign of `elu` of the weight) and how the projection is laid out (blocks of 5000 rows on the matrix
  unit against one host contraction). Everything between (`propagate`) is the same chain of host operations in both, and
  is carried as ONE function that no proof opens. The chain takes its four dimension records (`Dims`) and the shape
  relations its layout operations cite (`ShapeFacts`) as parameters, so that each program instantiates it with its own.
-/
import Idealize.ShloMosaic.PureOps
import Idealize.ShloMosaic.PureOps.Ideal
import Idealize.ShloMosaic.Lib.ValueIdx

noncomputable section

namespace Cert.Spec

open Idealize.ShloMosaic Idealize.ShloMosaic.ValueIdx

/-! ## The shapes (the literal shapes both programs print) -/

abbrev S50000x256 : Shape := ⟨2, ![50000, 256]⟩
abbrev S2x800000 : Shape := ⟨2, ![2, 800000]⟩
abbrev S800000 : Shape := ⟨1, ![800000]⟩
abbrev S6250x128 : Shape := ⟨2, ![6250, 128]⟩
abbrev S128x256 : Shape := ⟨2, ![128, 256]⟩
abbrev S128 : Shape := ⟨1, ![128]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S256x128 : Shape := ⟨2, ![256, 128]⟩
abbrev S1x128 : Shape := ⟨2, ![1, 128]⟩
abbrev S50000x128 : Shape := ⟨2, ![50000, 128]⟩

variable {F : FTy → Type} [FloatOps F]

/-! ## The clamp, two ways -/

/-- A weight is kept where it is positive and replaced by `c = f32 1e-7` elsewhere (any shape). -/
def clampPos {s : Shape} (v : FVec F s .f32) : FVec F s .f32 :=
  select (cmpf .ogt v (broadcast s (Scalar.ofBits .f32 0x00000000#32))) v (broadcast s (Scalar.ofBits .f32 0x33D6BF95#32))

/-- `elu w`: `w` where `w > 0`; elsewhere `1 · expm1 w'`, with `w' = 0` on the positive side and `w` on the other. -/
def elu (hb : S_.BroadcastsInDim S800000 (![] : Fin 0 → Fin S800000.rank)) (w : FVec F S800000 .f32) : FVec F S800000 .f32 :=
  select (cmpf .ogt w (broadcastInDim S800000 ![] hb (constant S_ .f32 0x00000000#32))) w
    (mulf (broadcastInDim S800000 ![] hb (constant S_ .f32 0x3F800000#32))
      (Host.expm1 (select (cmpf .ogt w (broadcastInDim S800000 ![] hb (constant S_ .f32 0x00000000#32)))
        (broadcastInDim S800000 ![] hb (id (constant S_ .f32 0x00000000#32))) w)))

/-- A weight whose `elu` is `≤ 0` is replaced by `c = f32 1e-7`; the others are kept. -/
def clampElu (hb : S_.BroadcastsInDim S800000 (![] : Fin 0 → Fin S800000.rank)) (w : FVec F S800000 .f32) : FVec F S800000 .f32 :=
  select (cmpf .ole (elu hb w) (broadcastInDim S800000 ![] hb (constant S_ .f32 0x00000000#32)))
    (broadcastInDim S800000 ![] hb (constant S_ .f32 0x33D6BF95#32)) w

/-! ## The shared chain: degrees, coefficients, two propagation steps -/

/-- The four dimension records the chain's scatters and gathers take. -/
structure Dims where
  /-- the scatter-add of the edge weights into the node degrees -/
  scDeg : ScatterDims S50000 S850000x1 S850000
  /-- the gather of a per-node scalar along the edges -/
  gaDis : GatherDims S50000 S850000x1 S850000
  /-- the gather of feature rows along the edges -/
  gaRow : GatherDims S50000x256 S850000x1 S850000x256
  /-- the scatter-add of feature rows into the nodes -/
  scRow : ScatterDims S50000x256 S850000x1 S850000x256

/-- The shape relations the chain's layout operations cite. -/
structure ShapeFacts : Prop where
  sl0 : S2x800000.Slices ![0, 0] S1x800000
  sl1 : S2x800000.Slices ![1, 0] S1x800000
  flat : S1x800000.ShapeCasts S800000
  cat : Shape.Concatenates [S800000, S50000] S850000 0
  b_n : S_.BroadcastsInDim S50000 (![] : Fin 0 → Fin S50000.rank)
  b_col : S850000.BroadcastsInDim S850000x1 (![0] : Fin 1 → Fin S850000x1.rank)
  b_e : S_.BroadcastsInDim S850000 (![] : Fin 0 → Fin S850000.rank)
  b_row : S850000x1.BroadcastsInDim S850000x256 (![0, 1] : Fin 2 → Fin S850000x256.rank)
  b_nf : S_.BroadcastsInDim S50000x256 (![] : Fin 0 → Fin S50000x256.rank)

variable (D : Dims) (h : ShapeFacts)

/-- Edge sources, then one self loop per node. -/
def src (ei : IVec S2x800000 32) : IVec S850000 32 :=
  concatenate S850000 0
    [⟨S800000, shapeCast S800000 (extractStridedSlice S1x800000 ![0, 0] ei h.sl0) h.flat⟩, ⟨S50000, iotaInDim S50000 32 0⟩] h.cat

/-- Edge targets, then one self loop per node. -/
def dst (ei : IVec S2x800000 32) : IVec S850000 32 :=
  concatenate S850000 0
    [⟨S800000, shapeCast S800000 (extractStridedSlice S1x800000 ![1, 0] ei h.sl1) h.flat⟩, ⟨S50000, iotaInDim S50000 32 0⟩] h.cat

/-- The (clamped) edge weights, then weight 1 on every self loop. -/
def wts (ew : FVec F S800000 .f32) : FVec F S850000 .f32 :=
  concatenate S850000 0
    [⟨S800000, ew⟩, ⟨S50000, broadcastInDim S50000 ![] h.b_n (constant S_ .f32 0x3F800000#32)⟩] h.cat

/-- The weight arriving at each node. -/
def deg (ew : FVec F S800000 .f32) (ei : IVec S2x800000 32) : FVec F S50000 .f32 :=
  Host.scatterAdd D.scDeg (broadcastInDim S50000 ![] h.b_n (constant S_ .f32 0x00000000#32))
    (broadcastInDim S850000x1 ![0] h.b_col (dst h ei)) (wts h ew)

/-- `deg^(-1/2)` where the degree is positive, `0` elsewhere. -/
def dis (ew : FVec F S800000 .f32) (ei : IVec S2x800000 32) : FVec F S50000 .f32 :=
  select (cmpf .ogt (deg D h ew ei) (broadcastInDim S50000 ![] h.b_n (constant S_ .f32 0x00000000#32)))
    (Host.rsqrt (deg D h ew ei)) (broadcastInDim S50000 ![] h.b_n (constant S_ .f32 0x00000000#32))

/-- A negative node index counts from the end (`v + 50000`). -/
def wrap (v : IVec S850000 32) : IVec S850000 32 :=
  select (cmpi .slt v (broadcastInDim S850000 ![] h.b_e (constantI S_ 32 0#32)))
    (addi v (broadcastInDim S850000 ![] h.b_e (constantI S_ 32 50000#32))) v

/-- The coefficient of each edge: `dis (src e) · w e · dis (dst e)`. -/
def nrm (ew : FVec F S800000 .f32) (ei : IVec S2x800000 32) : FVec F S850000 .f32 :=
  mulf (mulf (Host.gather D.gaDis (dis D h ew ei) (broadcastInDim S850000x1 ![0] h.b_col (wrap h (src h ei)))) (wts h ew))
    (Host.gather D.gaDis (dis D h ew ei) (broadcastInDim S850000x1 ![0] h.b_col (wrap h (dst h ei))))

/-- One propagation step: the rows `hh (src e) · nrm e` summed at the targets. -/
def step (ew : FVec F S800000 .f32) (ei : IVec S2x800000 32) (hh : FVec F S50000x256 .f32) : FVec F S50000x256 .f32 :=
  Host.scatterAdd D.scRow (broadcastInDim S50000x256 ![] h.b_nf (constant S_ .f32 0x00000000#32))
    (broadcastInDim S850000x1 ![0] h.b_col (dst h ei))
    (mulf (Host.gather D.gaRow hh (broadcastInDim S850000x1 ![0] h.b_col (wrap h (src h ei))))
      (broadcastInDim S850000x256 ![0, 1] h.b_row (broadcastInDim S850000x1 ![0] h.b_col (nrm D h ew ei))))

/-- Two steps from `x`. -/
def propagate (ew : FVec F S800000 .f32) (x : FVec F S50000x256 .f32) (ei : IVec S2x800000 32) : FVec F S50000x256 .f32 :=
  step D h ew ei (step D h ew ei x)

/-! ## The projection, index by index (at the exact instance) -/

/-- `out i j = ∑ k, hh i k · wt k j + b j` over the extended reals. -/
def project (hh : FVec Ideal S50000x256 .f32) (wt : FVec Ideal S256x128 .f32) (b : FVec Ideal S128 .f32) : FVec Ideal S50000x128 .f32 :=
  fun i => (∑ k : Fin 256, hh (ix2 (n0 := 50000) (n1 := 256) ⟨(i 0).val, idx2_lt0 i⟩ k) * wt (ix2 (n0 := 256) (n1 := 128) k ⟨(i 1).val, idx2_lt1 i⟩))
    + b (ix1 (n := 128) ⟨(i 1).val, idx2_lt1 i⟩)

end Cert.Spec

end
-- ==== Proof.KernelHost.lean ====
/-
  The host side of the idealized kernel program, read back. Between the two kernel regions @main runs the shared
  chain (degrees, coefficients, two propagation steps) on the clamped weights that region 0 left, and prepares the
  transposed weight matrix and the bias row; before region 0 it only lays the edge weights out as 6250×128.
  Each stretch of host operations is read "for any contents W": the buffer a stretch writes holds the chain's
  function of what W holds at the buffers the stretch reads. Composing the stretches through the boundaries of the
  run gives the three arrays region 1 finds, as functions of the launch contents and of region 0's output array.
-/
import proofs.«121173_j46316927320539_1_alg».proof.Proof.Gen.KernelIdeal.Frame
import proofs.«121173_j46316927320539_1_alg».proof.Proof.Spec
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.ShloMosaic.Tactic Idealize.SL.Sem Idealize.ShloMosaic.StableHlo

variable {F : FTy → Type} [FloatOps F]

/-- The chain's dimension records, as this program prints them. -/
def dimsK : Cert.Spec.Dims :=
  ⟨scatter_S50000_S850000x1_S850000_n_0_0_1, gather_S50000_S850000x1_S850000_n_0_n_n_0_1_1,
    gather_S50000x256_S850000x1_S850000x256_1_0_n_n_0_1_1256, scatter_S50000x256_S850000x1_S850000x256_1_0_0_1⟩

/-- The shape relations the chain cites, from this program's facts. -/
theorem factsK : Cert.Spec.ShapeFacts :=
  ⟨Facts₀.slices_S2x800000_S1x800000_0_0, Facts₀.slices_S2x800000_S1x800000_1_0, Facts₀.shapeCasts_S1x800000_S800000,
    Facts₀.concatenates_S800000_S50000_S850000_d0, Facts₀.bcast_S_S50000, Facts₀.bcast_S850000_S850000x1_0, Facts₀.bcast_S_S850000,
    Facts₀.bcast_S850000x1_S850000x256_0_1, Facts₀.bcast_S_S50000x256⟩

/-! ## The stretch before region 0: the weights laid out as 6250×128 -/

theorem pre_v0 (W : Valuation τ sig (Elt F)) :
    after hostOps0 W (main_v0 : DevRef τ sig) = shapeCast S6250x128 (W (main_arg2 : DevRef τ sig)) Facts₀.shapeCasts_S800000_S6250x128 := by
  after_results; try rfl

/-! ## The first stretch after region 0: sources, targets, weights, degrees -/

section Stretch1
variable (W : Valuation τ sig (Elt F))

/-- The clamped weights, flat: region 0's output array laid out as one row of 800000. -/
abbrev ewOf : FVec F Cert.Spec.S800000 .f32 := shapeCast S800000 (W (main_v1 : DevRef τ sig)) Facts₀.shapeCasts_S6250x128_S800000

theorem s1_src : after hostOps1 W (main_v6 : DevRef τ sig) = Cert.Spec.src factsK (W (main_arg1 : DevRef τ sig)) := by
  after_results; try rfl
theorem s1_dst : after hostOps1 W (main_v9 : DevRef τ sig) = Cert.Spec.dst factsK (W (main_arg1 : DevRef τ sig)) := by
  after_results; try rfl
theorem s1_wts : after hostOps1 W (main_v11 : DevRef τ sig) = Cert.Spec.wts factsK (ewOf W) := by
  after_results; try rfl
theorem s1_deg : after hostOps1 W (main_v14 : DevRef τ sig) = Cert.Spec.deg dimsK factsK (ewOf W) (W (main_arg1 : DevRef τ sig)) := by
  after_results; try rfl
theorem s1_pos : after hostOps1 W (main_v16 : DevRef τ sig)
    = cmpf .ogt (Cert.Spec.deg dimsK factsK (ewOf W) (W (main_arg1 : DevRef τ sig))) (broadcastInDim S50000 ![] Facts₀.bcast_S_S50000 (constant S_ .f32 0x00000000#32)) := by
  after_results; try rfl
theorem s1_rsqrt : after hostOps1 W (main_v17 : DevRef τ sig) = Host.rsqrt (Cert.Spec.deg dimsK factsK (ewOf W) (W (main_arg1 : DevRef τ sig))) := by
  after_results; try rfl
theorem s1_zero : after hostOps1 W (main_cst_2 : DevRef τ sig) = constant S_ .f32 0x00000000#32 := by
  after_results; try rfl
theorem s1_arg0 : after hostOps1 W (main_arg0 : DevRef τ sig) = W (main_arg0 : DevRef τ sig) := by after_results
theorem s1_arg3 : after hostOps1 W (main_arg3 : DevRef τ sig) = W (main_arg3 : DevRef τ sig) := by after_results
theorem s1_arg4 : after hostOps1 W (main_arg4 : DevRef τ sig) = W (main_arg4 : DevRef τ sig) := by after_results

end Stretch1

/-! ## The second stretch: `dis`, the inverse square root of the positive degrees -/

section Stretch2
variable (W : Valuation τ sig (Elt F))

theorem s2_dis : after hostOps1_1 W (main_v18 : DevRef τ sig)
    = select (W (main_v16 : DevRef τ sig)) (W (main_v17 : DevRef τ sig)) (broadcastInDim S50000 ![] Facts₀.bcast_S_S50000 (W (main_cst_2 : DevRef τ sig))) := by
  after_results; try rfl
theorem s2_src : after hostOps1_1 W (main_v6 : DevRef τ sig) = W (main_v6 : DevRef τ sig) := by after_results
theorem s2_dst : after hostOps1_1 W (main_v9 : DevRef τ sig) = W (main_v9 : DevRef τ sig) := by after_results
theorem s2_wts : after hostOps1_1 W (main_v11 : DevRef τ sig) = W (main_v11 : DevRef τ sig) := by after_results
theorem s2_arg0 : after hostOps1_1 W (main_arg0 : DevRef τ sig) = W (main_arg0 : DevRef τ sig) := by after_results
theorem s2_arg3 : after hostOps1_1 W (main_arg3 : DevRef τ sig) = W (main_arg3 : DevRef τ sig) := by after_results
theorem s2_arg4 : after hostOps1_1 W (main_arg4 : DevRef τ sig) = W (main_arg4 : DevRef τ sig) := by after_results

end Stretch2

/-! ## The third stretch: the coefficients and the two propagation steps; the transposed weights; the bias row -/

section Stretch3
variable (W : Valuation τ sig (Elt F))

/-- From contents that hold the sources, the targets, the weights, `dis` and the features, the stretch leaves the
    twice-propagated features: the stretch's operations are the chain's, one by one. -/
theorem s3_features (ew : FVec F Cert.Spec.S800000 .f32) (ei : IVec Cert.Spec.S2x800000 32) (x : FVec F Cert.Spec.S50000x256 .f32)
    (h6 : W (main_v6 : DevRef τ sig) = Cert.Spec.src factsK ei) (h9 : W (main_v9 : DevRef τ sig) = Cert.Spec.dst factsK ei)
    (h11 : W (main_v11 : DevRef τ sig) = Cert.Spec.wts factsK ew) (h18 : W (main_v18 : DevRef τ sig) = Cert.Spec.dis dimsK factsK ew ei)
    (h0 : W (main_arg0 : DevRef τ sig) = x) :
    after hostOps1_2 W (main_v60 : DevRef τ sig) = Cert.Spec.propagate dimsK factsK ew x ei := by
  after_results_simp
  rw [h6, h9, h11, h18, h0]
  rfl

theorem s3_wt : after hostOps1_2 W (main_v61 : DevRef τ sig)
    = transpose S256x128 [1, 0] (W (main_arg3 : DevRef τ sig)) Facts₀.transposes_S128x256_S256x128_1_0 := by
  after_results_simp; try rfl
theorem s3_bias : after hostOps1_2 W (main_v62 : DevRef τ sig)
    = shapeCast S1x128 (W (main_arg4 : DevRef τ sig)) Facts₀.shapeCasts_S128_S1x128 := by
  after_results_simp; try rfl

end Stretch3

/-! ## Through the boundaries of the run

`Gen.W1` is the contents when region 0 is entered, `Gen.W2` when it is left (its output array at what the write-back
left, everything else as entered), `Gen.W5` when region 1 is entered: the three stretches over `W2`. -/

section Compose
variable (m : (ℓ : Loc nD τ sig) → Buf (Elt F) ℓ) (ρ : Dev nD → PrngReg)

/-- Region 0 finds the launch weights laid out as 6250×128. -/
theorem entry0_weights (c : Dev nD) :
    V1 m ρ c main_v0 = shapeCast S6250x128 (m ((c : Thread nD τ).loc main_arg2)) Facts₀.shapeCasts_S800000_S6250x128 :=
  pre_v0 (W0 m ρ c)

/-- An argument no host operation writes and no window of region 0 stages holds its launch contents when region 0 is left. -/
theorem exit0_arg0 (c : Dev nD) : W2 m ρ c (main_arg0 : DevRef τ sig) = m ((c : Thread nD τ).loc main_arg0) :=
  (W2_of_ne m ρ c main_arg0 (by decide)).trans (by show after hostOps0 (W0 m ρ c) _ = _; after_results; try rfl)
theorem exit0_arg1 (c : Dev nD) : W2 m ρ c (main_arg1 : DevRef τ sig) = m ((c : Thread nD τ).loc main_arg1) :=
  (W2_of_ne m ρ c main_arg1 (by decide)).trans (by show after hostOps0 (W0 m ρ c) _ = _; after_results; try rfl)
theorem exit0_arg3 (c : Dev nD) : W2 m ρ c (main_arg3 : DevRef τ sig) = m ((c : Thread nD τ).loc main_arg3) :=
  (W2_of_ne m ρ c main_arg3 (by decide)).trans (by show after hostOps0 (W0 m ρ c) _ = _; after_results; try rfl)
theorem exit0_arg4 (c : Dev nD) : W2 m ρ c (main_arg4 : DevRef τ sig) = m ((c : Thread nD τ).loc main_arg4) :=
  (W2_of_ne m ρ c main_arg4 (by decide)).trans (by show after hostOps0 (W0 m ρ c) _ = _; after_results; try rfl)

/-- Region 0's output array, when the region is left, is what its write-back left. -/
theorem exit0_out (c : Dev nD) : W2 m ρ c (main_v1 : DevRef τ sig) = (dat0 (V1 m ρ) c).arrAt 1 cfg0.N :=
  W2_arr m ρ c 1

/-- Region 1 finds, as its feature matrix, the chain's two propagation steps on what region 0 left. -/
theorem entry1_features (c : Dev nD) :
    V5 m ρ c main_v60
      = Cert.Spec.propagate dimsK factsK (ewOf (W2 m ρ c)) (W2 m ρ c (main_arg0 : DevRef τ sig)) (W2 m ρ c (main_arg1 : DevRef τ sig)) := by
  show after hostOps1_2 (after hostOps1_1 (after hostOps1 (W2 m ρ c))) (main_v60 : DevRef τ sig) = _
  refine s3_features _ _ _ _ ?_ ?_ ?_ ?_ ?_
  · exact (s2_src _).trans (s1_src _)
  · exact (s2_dst _).trans (s1_dst _)
  · exact (s2_wts _).trans (s1_wts _)
  · refine (s2_dis _).trans ?_
    rw [s1_pos, s1_rsqrt, s1_zero]
    rfl
  · exact (s2_arg0 _).trans (s1_arg0 _)

/-- Region 1 finds the transposed weight matrix -/
theorem entry1_wt (c : Dev nD) :
    V5 m ρ c main_v61 = transpose S256x128 [1, 0] (W2 m ρ c (main_arg3 : DevRef τ sig)) Facts₀.transposes_S128x256_S256x128_1_0 := by
  show after hostOps1_2 (after hostOps1_1 (after hostOps1 (W2 m ρ c))) (main_v61 : DevRef τ sig) = _
  rw [s3_wt, s2_arg3, s1_arg3]

/-- and the bias as one row. -/
theorem entry1_bias (c : Dev nD) :
    V5 m ρ c main_v62 = shapeCast S1x128 (W2 m ρ c (main_arg4 : DevRef τ sig)) Facts₀.shapeCasts_S128_S1x128 := by
  show after hostOps1_2 (after hostOps1_1 (after hostOps1 (W2 m ρ c))) (main_v62 : DevRef τ sig) = _
  rw [s3_bias, s2_arg4, s1_arg4]

end Compose

end Cert.KernelIdeal.Host

end
-- ==== Proof.KernelRegion0.lean ====
/-
  Region 0 (the clamp kernel, one grid point holding the whole 6250×128 array): what its output array holds after the
  write-back, at any float instance — the clamp `clampPos` of the array the region finds.
-/
import proofs.«121173_j46316927320539_1_alg».proof.Proof.Gen.KernelIdeal.Frame
import proofs.«121173_j46316927320539_1_alg».proof.Proof.Spec
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

/-- The two zero offsets of the whole-buffer rectangle, as the constant function. -/
theorem off_zero : (![0, 0] : Fin 2 → Nat) = fun _ => 0 := funext fun a => by fin_cases a <;> rfl

/-- The body's payload is the clamp of the block it loads: the change of layout in front of it is to the same shape. -/
theorem pay_eq (x0 : Vec F S6250x128 .f32) : k0_pay1 x0 = Cert.Spec.clampPos (F := F) x0 := by
  show Cert.Spec.clampPos (F := F) (shapeCast S6250x128 x0 shapeCasts_S6250x128_S6250x128) = _
  rw [shapeCast_self]

/-- The clamp is pointwise: its value at an index is a function of the operand's value there alone. -/
theorem clampPos_congr {s t : Shape} (v : FVec F s .f32) (u : FVec F t .f32) (i : s.Idx) (k : t.Idx) (h : v i = u k) :
    Cert.Spec.clampPos (F := F) v i = Cert.Spec.clampPos (F := F) u k := by
  unfold Cert.Spec.clampPos
  rw [ValueIdx.select_apply, ValueIdx.select_apply, ValueIdx.cmpf_apply, ValueIdx.cmpf_apply, h]
  rfl

/-- Both windows sit at block (0, 0) at every point of the grid. -/
theorem idx_zero : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- What a point writes back is its block of the clamp of the input array. -/
theorem flushed_eq (c : Dev nD) (t : Fin cfg0.N) :
    (dat0 (F := F) V c).flushed 1 t
      = ((cfg0.win 1).blk t).view.read (Elt F) (Cert.Spec.clampPos (F := F) (V c main_v0)) := by
  show (cfg0.win 1).cut (grid0.coords t) ((dat0 V c).after 1 t) = _
  rw [after0_1]
  unfold out0_1
  rw [View.canon_unit_zero off_zero]
  simp only [View.ld_unit_zero (S := S6250x128) off_zero]
  rw [pay_eq]
  obtain ⟨e0, e1, e2, e3⟩ := idx_zero t
  funext j
  have h0 : ((cfg0.win 0).blk t).view.emb j = ((cfg0.win 1).blk t).view.emb j := by
    funext a; apply Fin.ext
    match a with
    | ⟨0, _⟩ => show win0_0.index t (0 : Fin 2) * 6250 + 1 * (j 0).val = win0_1.index t (0 : Fin 2) * 6250 + 1 * (j 0).val; rw [e0, e2]
    | ⟨1, _⟩ => show win0_0.index t (1 : Fin 2) * 128 + 1 * (j 1).val = win0_1.index t (1 : Fin 2) * 128 + 1 * (j 1).val; rw [e1, e3]
  show Cert.Spec.clampPos (F := F) (iblk0 V c 0 t) j
    = Cert.Spec.clampPos (F := F) (V c main_v0) (((cfg0.win 1).blk t).view.emb j)
  refine clampPos_congr _ _ _ _ ?_
  show V c main_v0 (((cfg0.win 0).blk t).view.emb j) = V c main_v0 (((cfg0.win 1).blk t).view.emb j)
  rw [h0]

/-- An index of the array is in a point's block iff each coordinate is in the block's range on its axis. -/
theorem mem_blk (t : Fin cfg0.N) (i : S6250x128.Idx) :
    i ∈ ((cfg0.win 1).blk t).view.set
      ↔ ∀ a : Fin 2, win0_1.index t a * S6250x128.size a ≤ (i a).val
          ∧ (i a).val < win0_1.index t a * S6250x128.size a + S6250x128.size a := by
  show i ∈ ((View.whole main_v1).slice (win0_1.rect t)).set ↔ _
  rw [View.set_slice_whole, Rect.mem_set_unit]
  exact Iff.rfl

/-- The one point's block is the whole array: every index is written back. -/
theorem covered (i : S6250x128.Idx) :
    ∃ t : Fin cfg0.N, (cfg0.win 1).flush t = true ∧ i ∈ ((cfg0.win 1).blk t).view.set := by
  obtain ⟨-, -, e2, e3⟩ := idx_zero t0_0
  have hi0 : (i 0).val < 6250 := (i 0).isLt
  have hi1 : (i 1).val < 128 := (i 1).isLt
  refine ⟨t0_0, flush0_1 t0_0, ?_⟩
  rw [mem_blk]
  intro a
  match a with
  | ⟨0, _⟩ =>
    show win0_1.index t0_0 (0 : Fin 2) * 6250 ≤ (i 0).val ∧ (i 0).val < win0_1.index t0_0 (0 : Fin 2) * 6250 + 6250
    rw [e2]; omega
  | ⟨1, _⟩ =>
    show win0_1.index t0_0 (1 : Fin 2) * 128 ≤ (i 1).val ∧ (i 1).val < win0_1.index t0_0 (1 : Fin 2) * 128 + 128
    rw [e3]; omega

/-- Region 0's output array after its one write-back is the clamp of the array the region finds. -/
theorem arrAt_out (c : Dev nD) :
    (dat0 (F := F) V c).arrAt 1 cfg0.N = Cert.Spec.clampPos (F := F) (V c main_v0) :=
  (dat0 (F := F) V c).arrAt_eq_of_cover 1 (Cert.Spec.clampPos (F := F) (V c main_v0))
    (fun t _ => flushed_eq V c t) covered

end Cert.KernelIdeal.Region0

end
-- ==== Proof.KernelRegion1.lean ====
/-
  Region 1 (the projection kernel, ten grid points of 5000 rows) at the exact instance: what its output array holds
  after the ten write-backs, as ONE function of the three arrays the region finds — block `t` of the result is
  `∑ k, h (5000 t + p) k · Wᵀ k j + b 0 j`, the matrix unit's contraction onto a zero accumulator plus the bias row
  broadcast down the block (the two format changes to bf16 are the identity here), and the ten blocks tile the array.
-/
import proofs.«121173_j46316927320539_1_alg».proof.Proof.Gen.KernelIdeal.Frame
import proofs.«121173_j46316927320539_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The matrix unit's operand indices -/

/-- The left operand's row is the output's row. -/
theorem lhs_row (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl

/-- The left operand's column is the contraction position. -/
theorem lhs_col (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q

/-- The right operand's row is the contraction position. -/
theorem rhs_row (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q

/-- The right operand's column is the output's column. -/
theorem rhs_col (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- The contraction of a 5000×256 block with a 256×128 matrix onto the zero accumulator, entry by entry. -/
theorem matmul_entry (a : FVec Ideal S5000x256 .bf16) (b : FVec Ideal S256x128 .bf16) (p : Fin 5000) (q : Fin 128) :
    matmul (F := Ideal) dot_S5000x256_S256x128_S5000x128_1_0_0_1_n_n none a b (constant (F := Ideal) S5000x128 .f32 0x00000000#32) (ix2 p q)
      = ∑ k : Fin 256, a (ix2 p k) * b (ix2 k q) := by
  show FloatOps.matmul _ none a b _ (ix2 p q) = _
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k :=
    funext fun ax => Fin.ext (by
      match ax with
      | ⟨0, _⟩ => exact lhs_row _ _
      | ⟨1, _⟩ => exact (lhs_col _ _).trans hk)
  have er : dot_S5000x256_S256x128_S5000x128_1_0_0_1_n_n.rhsIdx (ix2 p q) ((contrEquiv1 dot_S5000x256_S256x128_S5000x128_1_0_0_1_n_n 256 rfl rfl).symm k) = ix2 k q :=
    funext fun ax => Fin.ext (by
      match ax with
      | ⟨0, _⟩ => exact (rhs_row _ _).trans hk
      | ⟨1, _⟩ => exact rhs_col _ _)
  rw [el, er]

/-- The bias row broadcast down the block, entry by entry. -/
theorem bias_entry (x2 : FVec Ideal S1x128 .f32) (p : Fin 5000) (q : Fin 128) :
    broadcastTo S5000x128 x2 broadcasts_S1x128_S5000x128 (ix2 p q) = x2 (ix2 (0 : Fin 1) q) := by
  refine broadcastTo_apply x2 broadcasts_S1x128_S5000x128 (ix2 p q) (ix2 (0 : Fin 1) q) (fun a => ?_)
  match a with
  | ⟨0, _⟩ => rfl
  | ⟨1, _⟩ => rfl

/-! ## The body's arithmetic at an entry -/

/-- What the body stores at entry (p, q) of its block: row p of the loaded rows against column q of the loaded
    matrix, plus the bias at q. -/
theorem pay_entry (x0 : Vec Ideal S5000x256 .f32) (x1 : Vec Ideal S256x128 .f32) (x2 : Vec Ideal S1x128 .f32) (p : Fin 5000) (q : Fin 128) :
    k1_pay1 (F := Ideal) x0 x1 x2 (ix2 p q) = (∑ k : Fin 256, x0 (ix2 p k) * x1 (ix2 k q)) + x2 (ix2 (0 : Fin 1) q) := by
  unfold k1_pay1
  simp only [shapeCast_self]
  refine (addf_apply _ _ (ix2 p q)).trans ?_
  refine congrArg₂ (· + ·) ?_ ?_
  · exact matmul_entry _ _ p q
  · exact bias_entry x2 p q

variable (V : (c : Dev nD) → (b : Ref sig .tc) → Buf (Elt Ideal) ((c : Thread nD τ).loc b))

/-- The bias as the region finds it: row 0 of the 1×128 array. -/
def biasRow (c : Dev nD) : FVec Ideal Cert.Spec.S128 .f32 :=
  fun j => V c main_v62 (ix2 (n0 := 1) (n1 := 128) 0 ⟨(j 0).val, (j 0).isLt⟩)

/-! ## The projection at an entry named by its coordinates -/

/-- The projection at an index whose coordinates are r and q. -/
theorem project_entry (hh : FVec Ideal Cert.Spec.S50000x256 .f32) (wt : FVec Ideal Cert.Spec.S256x128 .f32) (b : FVec Ideal Cert.Spec.S128 .f32)
    (i : Cert.Spec.S50000x128.Idx) (r : Fin 50000) (q : Fin 128) (hr : (i 0).val = r.val) (hq : (i 1).val = q.val) :
    Cert.Spec.project hh wt b i = (∑ k : Fin 256, hh (ix2 r k) * wt (ix2 k q)) + b (ix1 q) := by
  have e0 : (⟨(i 0).val, idx2_lt0 i⟩ : Fin 50000) = r := Fin.ext hr
  have e1 : (⟨(i 1).val, idx2_lt1 i⟩ : Fin 128) = q := Fin.ext hq
  unfold Cert.Spec.project
  rw [e0, e1]

/-! ## Where each window's block sits in its array -/

theorem hz : (![0, 0] : Fin 2 → Nat) = fun _ => 0 := funext fun a => by fin_cases a <;> rfl

/-- The index maps over the ten points: the row windows (0 and 3) are at block t along the rows, the matrix and
    the bias windows stay at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Block t of the rows window is rows 5000 t … 5000 t + 4999 of the 50000×256 array. -/
theorem rows_blk (c : Dev nD) (t : Fin cfg1.N) (x : S5000x256.Idx) (k : S50000x256.Idx)
    (hk0 : (k 0).val = 5000 * t.val + (x 0).val) (hk1 : (k 1).val = (x 1).val) :
    (iblk1 V c 0 t : Vec Ideal S5000x256 .f32) x = (V c main_v60 : S50000x256.Idx → Elt Ideal .f32) k := by
  obtain ⟨e0, e1, -⟩ := idx_facts t
  unfold iblk1
  rw [View.read_apply]
  show V c main_v60 _ = V c main_v60 _
  congr 1
  funext a
  apply Fin.ext
  match a with
  | ⟨0, _⟩ => show win1_0.index t 0 * 5000 + 1 * (x 0).val = (k 0).val; rw [e0, hk0]; omega
  | ⟨1, _⟩ => show win1_0.index t 1 * 256 + 1 * (x 1).val = (k 1).val; rw [e1, hk1]; omega

/-- The matrix window's one block is the whole 256×128 array. -/
theorem mat_blk (c : Dev nD) (t : Fin cfg1.N) (x : S256x128.Idx) :
    (iblk1 V c 1 t : Vec Ideal S256x128 .f32) x = (V c main_v61 : S256x128.Idx → Elt Ideal .f32) x := by
  obtain ⟨-, -, e0, e1, -⟩ := idx_facts t
  unfold iblk1
  rw [View.read_apply]
  show V c main_v61 _ = V c main_v61 _
  congr 1
  funext a
  apply Fin.ext
  match a with
  | ⟨0, _⟩ => show win1_1.index t 0 * 256 + 1 * (x 0).val = (x 0).val; rw [e0]; omega
  | ⟨1, _⟩ => show win1_1.index t 1 * 128 + 1 * (x 1).val = (x 1).val; rw [e1]; omega

/-- The bias window's one block is the whole 1×128 array. -/
theorem bias_blk (c : Dev nD) (t : Fin cfg1.N) (x : S1x128.Idx) :
    (iblk1 V c 2 t : Vec Ideal S1x128 .f32) x = (V c main_v62 : S1x128.Idx → Elt Ideal .f32) x := by
  obtain ⟨-, -, -, -, e0, e1, -⟩ := idx_facts t
  unfold iblk1
  rw [View.read_apply]
  show V c main_v62 _ = V c main_v62 _
  congr 1
  funext a
  apply Fin.ext
  match a with
  | ⟨0, _⟩ => show win1_2.index t 0 * 1 + 1 * (x 0).val = (x 0).val; rw [e0]; omega
  | ⟨1, _⟩ => show win1_2.index t 1 * 128 + 1 * (x 1).val = (x 1).val; rw [e1]; omega

/-! ## What each point writes back -/

/-- Point t writes back block t of the projection of the arrays the region finds: rows 5000 t … 5000 t + 4999. -/
theorem flushed_eq (c : Dev nD) (t : Fin cfg1.N) :
    (dat1 (F := Ideal) V c).flushed 3 t
      = ((cfg1.win 3).blk t).view.read (Elt Ideal) (Cert.Spec.project (V c main_v60) (V c main_v61) (biasRow V c)) := by
  show (cfg1.win 3).cut (grid1.coords t) ((dat1 V c).after 3 t) = _
  rw [after1_3]
  unfold out1_3
  rw [View.canon_unit_zero hz]
  simp only [View.ld_unit_zero (S := S5000x256) hz, View.ld_unit_zero (S := S256x128) hz, View.ld_unit_zero (S := S1x128) hz]
  obtain ⟨-, -, -, -, -, -, e0, e1⟩ := idx_facts t
  have ht : t.val < 10 := lt_of_lt_of_eq t.isLt (show cfg1.N = 10 from N_1)
  funext j
  show k1_pay1 (F := Ideal) (iblk1 V c 0 t) (iblk1 V c 1 t) (iblk1 V c 2 t) j
    = Cert.Spec.project (V c main_v60) (V c main_v61) (biasRow V c) (((cfg1.win 3).blk t).view.emb j)
  obtain ⟨p, q, rfl⟩ : ∃ (p : Fin 5000) (q : Fin 128), j = ix2 p q := ⟨j 0, j 1, eq_ix2 j⟩
  refine (pay_entry _ _ _ p q).trans ?_
  have h0 : ((((cfg1.win 3).blk t).view.emb (ix2 p q) : S50000x128.Idx) 0).val = 5000 * t.val + p.val := by
    show win1_3.index t 0 * 5000 + 1 * p.val = _; rw [e0]; omega
  have h1 : ((((cfg1.win 3).blk t).view.emb (ix2 p q) : S50000x128.Idx) 1).val = q.val := by
    show win1_3.index t 1 * 128 + 1 * q.val = _; rw [e1]; omega
  refine Eq.trans ?_ (project_entry _ _ _ _ ⟨5000 * t.val + p.val, by have := p.isLt; omega⟩ q h0 h1).symm
  refine congrArg₂ (· + ·) (Finset.sum_congr rfl fun k _ => ?_) ?_
  · exact congrArg₂ (· * ·) (rows_blk V c t (ix2 p k) (ix2 ⟨5000 * t.val + p.val, by have := p.isLt; omega⟩ k) rfl rfl) (mat_blk V c t (ix2 k q))
  · exact bias_blk V c t (ix2 (0 : Fin 1) q)

/-! ## The ten blocks tile the array -/

/-- An index of the array is in point t's block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v63).slice (win1_3.rect t)).set ↔ _
  rw [View.set_slice_whole, Rect.mem_set_unit]
  exact Iff.rfl

/-- Row r of the array is written back by point r / 5000. -/
theorem cover (i : S50000x128.Idx) :
    ∃ t : Fin cfg1.N, (cfg1.win 3).flush t = true ∧ i ∈ ((cfg1.win 3).blk t).view.set := by
  have hi0 : (i 0).val < 50000 := idx2_lt0 i
  have hi1 : (i 1).val < 128 := idx2_lt1 i
  have hN : cfg1.N = 10 := N_1
  have hlt : (i 0).val / 5000 < cfg1.N := by rw [hN]; omega
  obtain ⟨-, -, -, -, -, -, e0, e1⟩ := idx_facts ⟨(i 0).val / 5000, hlt⟩
  refine ⟨⟨(i 0).val / 5000, hlt⟩, flush1_3 _, ?_⟩
  rw [mem_blk]
  intro a
  match a with
  | ⟨0, _⟩ =>
    show win1_3.index ⟨(i 0).val / 5000, hlt⟩ 0 * 5000 ≤ (i 0).val ∧ (i 0).val < win1_3.index ⟨(i 0).val / 5000, hlt⟩ 0 * 5000 + 5000
    rw [e0]; show (i 0).val / 5000 * 5000 ≤ (i 0).val ∧ (i 0).val < (i 0).val / 5000 * 5000 + 5000; omega
  | ⟨1, _⟩ =>
    show win1_3.index ⟨(i 0).val / 5000, hlt⟩ 1 * 128 ≤ (i 1).val ∧ (i 1).val < win1_3.index ⟨(i 0).val / 5000, hlt⟩ 1 * 128 + 128
    rw [e1]; omega

/-! ## The array after the region -/

/-- Region 1's output array after its ten write-backs is the projection of the arrays the region finds. -/
theorem arrAt_out (c : Dev nD) :
    (dat1 (F := Ideal) V c).arrAt 3 cfg1.N = Cert.Spec.project (V c main_v60) (V c main_v61) (biasRow V c) :=
  (dat1 (F := Ideal) V c).arrAt_eq_of_cover 3 (Cert.Spec.project (V c main_v60) (V c main_v61) (biasRow V c))
    (fun t _ => flushed_eq V c t) cover

end Cert.KernelIdeal.Region1

end
-- ==== Proof.KernelValue.lean ====
/-
  The idealized kernel's result as ONE function of its five argument arrays, at the exact instance.
  Reading the run backwards: the result buffer ends as region 1's output array; that is the projection of the three
  arrays region 1 finds; those are the chain's two propagation steps on region 0's output laid out flat, the
  transposed weight matrix, and the bias as one row; region 0's output is the clamp of the weights laid out as
  6250×128; and no argument has moved meanwhile.
-/
import proofs.«121173_j46316927320539_1_alg».proof.Proof.KernelHost
import proofs.«121173_j46316927320539_1_alg».proof.Proof.KernelRegion0
import proofs.«121173_j46316927320539_1_alg».proof.Proof.KernelRegion1
import Idealize.ShloMosaic.Lib.Pipeline.Value

set_option maxRecDepth 16384

noncomputable section

namespace Cert.KernelIdeal.Value

open Cert.KernelIdeal Cert.KernelIdeal.Gen Cert.KernelIdeal.Host
open Idealize.ShloMosaic Idealize.ShloMosaic.TcCoe Idealize.ShloMosaic.ValueIdx Idealize.SL.Sem Idealize.ShloMosaic.StableHlo

/-- The kernel's result: clamp by sign through the 6250×128 layout, propagate twice, project. -/
def result (x : FVec Ideal Cert.Spec.S50000x256 .f32) (ei : IVec Cert.Spec.S2x800000 32) (ew : FVec Ideal Cert.Spec.S800000 .f32)
    (w : FVec Ideal Cert.Spec.S128x256 .f32) (b : FVec Ideal Cert.Spec.S128 .f32) : FVec Ideal Cert.Spec.S50000x128 .f32 :=
  Cert.Spec.project
    (Cert.Spec.propagate dimsK factsK
      (shapeCast S800000 (Cert.Spec.clampPos (F := Ideal) (shapeCast S6250x128 ew Facts₀.shapeCasts_S800000_S6250x128)) Facts₀.shapeCasts_S6250x128_S800000)
      x ei)
    (transpose S256x128 [1, 0] w Facts₀.transposes_S128x256_S256x128_1_0) b

/-- A vector recast as one row, read in that row, is the vector. -/
theorem row_of_recast (b : FVec Ideal Cert.Spec.S128 .f32) (q : Fin 128) :
    shapeCast S1x128 b Facts₀.shapeCasts_S128_S1x128 (ix2 (n0 := 1) (n1 := 128) 0 q) = b (ix1 q) := by
  refine shapeCast_apply b Facts₀.shapeCasts_S128_S1x128 (ix2 (n0 := 1) (n1 := 128) 0 q) (ix1 q) ?_
  rw [Shape.rowMajor_val_one, Shape.rowMajor_val_two]
  show q.val = (0 : Fin 1).val * 128 + q.val
  simp

variable (m : (ℓ : Loc nD τ sig) → Buf (Elt Ideal) ℓ) (ρ : Dev nD → PrngReg)

/-- The bias region 1 finds in row 0 is the bias argument. -/
theorem bias_eq (c : Dev nD) : Region1.biasRow (V5 m ρ) c = m ((c : Thread nD τ).loc main_arg4) := by
  funext j
  unfold Region1.biasRow
  rw [entry1_bias, exit0_arg4]
  refine (row_of_recast _ ⟨(j 0).val, (j 0).isLt⟩).trans ?_
  exact congrArg _ (eq_ix1 j).symm

/-- The result buffer at the last boundary of the run is `result` of the launch contents. -/
theorem result_eq (c : Dev nD) :
    W6 m ρ c (main_v63 : DevRef τ sig)
      = result (m ((c : Thread nD τ).loc main_arg0)) (m ((c : Thread nD τ).loc main_arg1)) (m ((c : Thread nD τ).loc main_arg2))
          (m ((c : Thread nD τ).loc main_arg3)) (m ((c : Thread nD τ).loc main_arg4)) := by
  refine (W6_arr m ρ c 3).trans ?_
  rw [Region1.arrAt_out (V5 m ρ) c, bias_eq, entry1_features, entry1_wt, exit0_arg0, exit0_arg1, exit0_arg3]
  unfold ewOf
  rw [exit0_out, Region0.arrAt_out (V1 m ρ) c, entry0_weights]
  rfl

end Cert.KernelIdeal.Value

end
-- ==== Proof.RefRun.lean ====
/-
  The reference program's @main as ONE straight line of its 99 host operations, and its run.

  @main calls four module-local functions; a call is the callee's body on the operands, so the line lists each
  callee's operations at the call site, over that call's own record of buffers: @elu's fifteen (its two nested
  selections among them: the first converts the scalar zero to its own type, broadcasts it and selects; the second
  is the selection alone), then the comparison of its result with zero and the constant that replaces a weight,
  the selection that clamps (two operations), the sources, targets and weights with one self loop per node, the
  degrees (a scatter-add), their inverse square roots guarded by a selection (two operations), the three index
  wraps with their gathers, the edge coefficients, two propagation steps (gather, scale, scatter-add), and the
  projection with its bias.

  Every weakly fair execution of that line terminates with each buffer at the fold of the operations' results
  over the launch contents.
-/
import proofs.«121173_j46316927320539_1_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded at their sites. -/
abbrev ops : List (HloOp τ sig (Elt F)) :=
  [ -- elu of the weights: w where w > 0, else 1 · expm1 (w where w ≤ 0, 0 elsewhere)
    TRef.nullary main_call0.cst (constant S_ .f32 0x00000000#32),
    TRef.unary main_call0.cst main_call0.v0 (broadcastInDim S800000 ![] bcast_S_S800000),
    TRef.binary (.of main_arg2) main_call0.v0 main_call0.v1 (cmpf .ogt),
    TRef.nullary main_call0.cst_0 (constant S_ .f32 0x00000000#32),
    TRef.unary main_call0.cst_0 main_call0.v2 (broadcastInDim S800000 ![] bcast_S_S800000),
    TRef.binary (.of main_arg2) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S800000 ![] bcast_S_S800000),
    TRef.ternary main_call0.v3 main_call0.call0.v1 (.of main_arg2) main_call0.call0.v2 select,
    TRef.unary main_call0.call0.v2 main_call0.v5 Host.expm1,
    TRef.nullary main_call0.cst_2 (constant S_ .f32 0x3F800000#32),
    TRef.unary main_call0.cst_2 main_call0.v6 (broadcastInDim S800000 ![] bcast_S_S800000),
    TRef.binary main_call0.v6 main_call0.v5 main_call0.v7 mulf,
    TRef.ternary main_call0.v1 (.of main_arg2) main_call0.v7 main_call0.call1.v0 select,
    -- the clamp: where elu w ≤ 0 the weight becomes the constant
    nullary main_cst (constant S_ .f32 0x00000000#32),
    unary main_cst main_v1 (broadcastInDim S800000 ![] bcast_S_S800000 : (⟨S_, .f32⟩ : BufTy).Contents (Elt F) → (⟨S800000, .f32⟩ : BufTy).Contents (Elt F)),
    binary main_v0 main_v1 main_v2 (cmpf .ole : (⟨S800000, .f32⟩ : BufTy).Contents (Elt F) → (⟨S800000, .f32⟩ : BufTy).Contents (Elt F) → (⟨S800000, .i1⟩ : BufTy).Contents (Elt F)),
    nullary main_cst_0 (constant S_ .f32 0x33D6BF95#32),
    TRef.unary (.of main_cst_0 : TRef sig ⟨S_, .f32⟩) main_call1.v0 (broadcastInDim S800000 ![] bcast_S_S800000),
    TRef.ternary (.of main_v2) main_call1.v0 (.of main_arg2) main_call1.v1 select,
    -- sources and targets, each followed by one self loop per node
    nullary main_v4 (iotaInDim S50000 32 0),
    unary main_arg1 main_v5 ((extractStridedSlice S1x800000 ![0, 0] · slices_S2x800000_S1x800000_0_0) : (⟨S2x800000, .i32⟩ : BufTy).Contents (Elt F) → (⟨S1x800000, .i32⟩ : BufTy).Contents (Elt F)),
    reshape main_v5 main_v6 rfl shapeCasts_S1x800000_S800000,
    binary main_v6 main_v4 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v8 ((extractStridedSlice S1x800000 ![1, 0] · slices_S2x800000_S1x800000_1_0) : (⟨S2x800000, .i32⟩ : BufTy).Contents (Elt F) → (⟨S1x800000, .i32⟩ : BufTy).Contents (Elt F)),
    reshape main_v8 main_v9 rfl shapeCasts_S1x800000_S800000,
    binary main_v9 main_v4 main_v10 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    -- the clamped weights, then weight 1 on every self loop
    nullary main_cst_1 (constant S_ .f32 0x3F800000#32),
    unary main_cst_1 main_v11 (broadcastInDim S50000 ![] bcast_S_S50000 : (⟨S_, .f32⟩ : BufTy).Contents (Elt F) → (⟨S50000, .f32⟩ : BufTy).Contents (Elt F)),
    binary main_v3 main_v11 main_v12 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    -- the degrees: the weights summed at the targets
    nullary main_cst_2 (constant S_ .f32 0x00000000#32),
    unary main_cst_2 main_v13 (broadcastInDim S50000 ![] bcast_S_S50000 : (⟨S_, .f32⟩ : BufTy).Contents (Elt F) → (⟨S50000, .f32⟩ : BufTy).Contents (Elt F)),
    unary main_v10 main_v14 (broadcastInDim S850000x1 ![0] bcast_S850000_S850000x1_0 : (⟨S850000, .i32⟩ : BufTy).Contents (Elt F) → (⟨S850000x1, .i32⟩ : BufTy).Contents (Elt F)),
    ternary main_v13 main_v14 main_v12 main_v15 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    -- their inverse square roots where positive, zero elsewhere
    nullary main_cst_3 (constant S_ .f32 0x00000000#32),
    unary main_cst_3 main_v16 (broadcastInDim S50000 ![] bcast_S_S50000 : (⟨S_, .f32⟩ : BufTy).Contents (Elt F) → (⟨S50000, .f32⟩ : BufTy).Contents (Elt F)),
    binary main_v15 main_v16 main_v17 (cmpf .ogt : (⟨S50000, .f32⟩ : BufTy).Contents (Elt F) → (⟨S50000, .f32⟩ : BufTy).Contents (Elt F) → (⟨S50000, .i1⟩ : BufTy).Contents (Elt F)),
    unary main_v15 main_v18 (Host.rsqrt : (⟨S50000, .f32⟩ : BufTy).Contents (Elt F) → (⟨S50000, .f32⟩ : BufTy).Contents (Elt F)),
    nullary main_cst_4 (constant S_ .f32 0x00000000#32),
    TRef.unary (.of main_cst_4 : TRef sig ⟨S_, .f32⟩) main_call2.v0 (broadcastInDim S50000 ![] bcast_S_S50000),
    TRef.ternary (.of main_v17) (.of main_v18) main_call2.v0 main_call2.v1 select,
    -- the sources wrapped, and the coefficient's first factor gathered along them, times the weight
    nullary main_c (constantI S_ 32 0#32),
    unary main_c main_v20 (broadcastInDim S850000 ![] bcast_S_S850000 : (⟨S_, .i32⟩ : BufTy).Contents (Elt F) → (⟨S850000, .i32⟩ : BufTy).Contents (Elt F)),
    binary main_v7 main_v20 main_v21 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v22 (broadcastInDim S850000 ![] bcast_S_S850000 : (⟨S_, .i32⟩ : BufTy).Contents (Elt F) → (⟨S850000, .i32⟩ : BufTy).Contents (Elt F)),
    binary main_v7 main_v22 main_v23 (addi : (⟨S850000, .i32⟩ : BufTy).Contents (Elt F) → (⟨S850000, .i32⟩ : BufTy).Contents (Elt F) → (⟨S850000, .i32⟩ : BufTy).Contents (Elt F)),
    ternary main_v21 main_v23 main_v7 main_v24 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v24 main_v25 (broadcastInDim S850000x1 ![0] bcast_S850000_S850000x1_0 : (⟨S850000, .i32⟩ : BufTy).Contents (Elt F) → (⟨S850000x1, .i32⟩ : BufTy).Contents (Elt F)),
    binary main_v19 main_v25 main_v26 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v26 main_v12 main_v27 (mulf : (⟨S850000, .f32⟩ : BufTy).Contents (Elt F) → (⟨S850000, .f32⟩ : BufTy).Contents (Elt F) → (⟨S850000, .f32⟩ : BufTy).Contents (Elt F)),
    -- the targets wrapped, the second factor gathered along them: the edge coefficients
    nullary main_c_6 (constantI S_ 32 0#32),
    unary main_c_6 main_v28 (broadcastInDim S850000 ![] bcast_S_S850000 : (⟨S_, .i32⟩ : BufTy).Contents (Elt F) → (⟨S850000, .i32⟩ : BufTy).Contents (Elt F)),
    binary main_v10 main_v28 main_v29 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v30 (broadcastInDim S850000 ![] bcast_S_S850000 : (⟨S_, .i32⟩ : BufTy).Contents (Elt F) → (⟨S850000, .i32⟩ : BufTy).Contents (Elt F)),
    binary main_v10 main_v30 main_v31 (addi : (⟨S850000, .i32⟩ : BufTy).Contents (Elt F) → (⟨S850000, .i32⟩ : BufTy).Contents (Elt F) → (⟨S850000, .i32⟩ : BufTy).Contents (Elt F)),
    ternary main_v29 main_v31 main_v10 main_v32 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v32 main_v33 (broadcastInDim S850000x1 ![0] bcast_S850000_S850000x1_0 : (⟨S850000, .i32⟩ : BufTy).Contents (Elt F) → (⟨S850000x1, .i32⟩ : BufTy).Contents (Elt F)),
    binary main_v19 main_v33 main_v34 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v27 main_v34 main_v35 (mulf : (⟨S850000, .f32⟩ : BufTy).Contents (Elt F) → (⟨S850000, .f32⟩ : BufTy).Contents (Elt F) → (⟨S850000, .f32⟩ : BufTy).Contents (Elt F)),
    -- the first step: the feature rows gathered along the wrapped sources, scaled by the coefficients, summed at the targets
    nullary main_c_8 (constantI S_ 32 0#32),
    unary main_c_8 main_v36 (broadcastInDim S850000 ![] bcast_S_S850000 : (⟨S_, .i32⟩ : BufTy).Contents (Elt F) → (⟨S850000, .i32⟩ : BufTy).Contents (Elt F)),
    binary main_v7 main_v36 main_v37 (cmpi .slt : (⟨S850000, .i32⟩ : BufTy).Contents (Elt F) → (⟨S850000, .i32⟩ : BufTy).Contents (Elt F) → (⟨S850000, .i1⟩ : BufTy).Contents (Elt F)),
    nullary main_c_9 (constantI S_ 32 50000#32),
    unary main_c_9 main_v38 (broadcastInDim S850000 ![] bcast_S_S850000 : (⟨S_, .i32⟩ : BufTy).Contents (Elt F) → (⟨S850000, .i32⟩ : BufTy).Contents (Elt F)),
    binary main_v7 main_v38 main_v39 (addi : (⟨S850000, .i32⟩ : BufTy).Contents (Elt F) → (⟨S850000, .i32⟩ : BufTy).Contents (Elt F) → (⟨S850000, .i32⟩ : BufTy).Contents (Elt F)),
    ternary main_v37 main_v39 main_v7 main_v40 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v40 main_v41 (broadcastInDim S850000x1 ![0] bcast_S850000_S850000x1_0 : (⟨S850000, .i32⟩ : BufTy).Contents (Elt F) → (⟨S850000x1, .i32⟩ : BufTy).Contents (Elt F)),
    binary main_arg0 main_v41 main_v42 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v35 main_v43 (broadcastInDim S850000x1 ![0] bcast_S850000_S850000x1_0 : (⟨S850000, .f32⟩ : BufTy).Contents (Elt F) → (⟨S850000x1, .f32⟩ : BufTy).Contents (Elt F)),
    unary main_v43 main_v44 (broadcastInDim S850000x256 ![0, 1] bcast_S850000x1_S850000x256_0_1 : (⟨S850000x1, .f32⟩ : BufTy).Contents (Elt F) → (⟨S850000x256, .f32⟩ : BufTy).Contents (Elt F)),
    binary main_v42 main_v44 main_v45 (mulf : (⟨S850000x256, .f32⟩ : BufTy).Contents (Elt F) → (⟨S850000x256, .f32⟩ : BufTy).Contents (Elt F) → (⟨S850000x256, .f32⟩ : BufTy).Contents (Elt F)),
    nullary main_cst_10 (constant S_ .f32 0x00000000#32),
    unary main_cst_10 main_v46 (broadcastInDim S50000x256 ![] bcast_S_S50000x256 : (⟨S_, .f32⟩ : BufTy).Contents (Elt F) → (⟨S50000x256, .f32⟩ : BufTy).Contents (Elt F)),
    unary main_v10 main_v47 (broadcastInDim S850000x1 ![0] bcast_S850000_S850000x1_0 : (⟨S850000, .i32⟩ : BufTy).Contents (Elt F) → (⟨S850000x1, .i32⟩ : BufTy).Contents (Elt F)),
    ternary main_v46 main_v47 main_v45 main_v48 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    -- the second step, from the first step's result
    nullary main_c_11 (constantI S_ 32 0#32),
    unary main_c_11 main_v49 (broadcastInDim S850000 ![] bcast_S_S850000 : (⟨S_, .i32⟩ : BufTy).Contents (Elt F) → (⟨S850000, .i32⟩ : BufTy).Contents (Elt F)),
    binary main_v7 main_v49 main_v50 (cmpi .slt : (⟨S850000, .i32⟩ : BufTy).Contents (Elt F) → (⟨S850000, .i32⟩ : BufTy).Contents (Elt F) → (⟨S850000, .i1⟩ : BufTy).Contents (Elt F)),
    nullary main_c_12 (constantI S_ 32 50000#32),
    unary main_c_12 main_v51 (broadcastInDim S850000 ![] bcast_S_S850000 : (⟨S_, .i32⟩ : BufTy).Contents (Elt F) → (⟨S850000, .i32⟩ : BufTy).Contents (Elt F)),
    binary main_v7 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v7 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v35 main_v56 (broadcastInDim S850000x1 ![0] bcast_S850000_S850000x1_0 : (⟨S850000, .f32⟩ : BufTy).Contents (Elt F) → (⟨S850000x1, .f32⟩ : BufTy).Contents (Elt F)),
    unary main_v56 main_v57 (broadcastInDim S850000x256 ![0, 1] bcast_S850000x1_S850000x256_0_1 : (⟨S850000x1, .f32⟩ : BufTy).Contents (Elt F) → (⟨S850000x256, .f32⟩ : BufTy).Contents (Elt F)),
    binary main_v55 main_v57 main_v58 (mulf : (⟨S850000x256, .f32⟩ : BufTy).Contents (Elt F) → (⟨S850000x256, .f32⟩ : BufTy).Contents (Elt F) → (⟨S850000x256, .f32⟩ : BufTy).Contents (Elt F)),
    nullary main_cst_13 (constant S_ .f32 0x00000000#32),
    unary main_cst_13 main_v59 (broadcastInDim S50000x256 ![] bcast_S_S50000x256 : (⟨S_, .f32⟩ : BufTy).Contents (Elt F) → (⟨S50000x256, .f32⟩ : BufTy).Contents (Elt F)),
    unary main_v10 main_v60 (broadcastInDim S850000x1 ![0] bcast_S850000_S850000x1_0 : (⟨S850000, .i32⟩ : BufTy).Contents (Elt F) → (⟨S850000x1, .i32⟩ : BufTy).Contents (Elt F)),
    ternary main_v59 main_v60 main_v58 main_v61 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    -- the projection: one contraction against the transposed matrix, plus the bias on every row
    unary main_arg3 main_v62 ((transpose S256x128 [1, 0] · transposes_S128x256_S256x128_1_0) : (⟨S128x256, .f32⟩ : BufTy).Contents (Elt F) → (⟨S256x128, .f32⟩ : BufTy).Contents (Elt F)),
    binary main_v61 main_v62 main_v63 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg4 main_v64 (broadcastInDim S1x128 ![1] bcast_S128_S1x128_1 : (⟨S128, .f32⟩ : BufTy).Contents (Elt F) → (⟨S1x128, .f32⟩ : BufTy).Contents (Elt F)),
    unary main_v64 main_v65 (broadcastInDim S50000x128 ![0, 1] bcast_S1x128_S50000x128_0_1 : (⟨S1x128, .f32⟩ : BufTy).Contents (Elt F) → (⟨S50000x128, .f32⟩ : BufTy).Contents (Elt F)),
    binary main_v63 main_v65 main_v66 (addf : (⟨S50000x128, .f32⟩ : BufTy).Contents (Elt F) → (⟨S50000x128, .f32⟩ : BufTy).Contents (Elt F) → (⟨S50000x128, .f32⟩ : BufTy).Contents (Elt F)) ]

-- ninety-nine binds re-associated: the rewrite under the chain recurses once per statement
set_option maxRecDepth 4096 in
set_option maxHeartbeats 4000000 in
/-- @main is that straight line: its two windows and the functions' definitions unfolded at their calls, the records
    at their fields, both sides are one chain of steps once sequencing is reassociated. -/
theorem main_eq (c : Dev nD) : main (F := F) c = seq ops := by
  simp only [main, main_part0, main_part1, fn_elu.body, fn_where.body, fn_where_0.body, fn_where_1.body, fn_where_2.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only: one fact per operation, in the line's order. -/
theorem ops_sub : (ops : List (HloOp τ sig (Elt F))).Forall fun op => op.bufs ⊆ tcRefs τ sig :=
  ⟨-- elu
   nullary_bufs_sub .., unary_bufs_sub .., binary_bufs_sub .., nullary_bufs_sub .., unary_bufs_sub .., binary_bufs_sub ..,
   nullary_bufs_sub .., unary_bufs_sub .., unary_bufs_sub .., ternary_bufs_sub .., unary_bufs_sub .., nullary_bufs_sub ..,
   unary_bufs_sub .., binary_bufs_sub .., ternary_bufs_sub ..,
   -- the clamp
   nullary_bufs_sub .., unary_bufs_sub .., binary_bufs_sub .., nullary_bufs_sub .., unary_bufs_sub .., ternary_bufs_sub ..,
   -- sources and targets
   nullary_bufs_sub .., unary_bufs_sub .., reshape_bufs_sub .., binary_bufs_sub .., unary_bufs_sub .., reshape_bufs_sub ..,
   binary_bufs_sub ..,
   -- weights
   nullary_bufs_sub .., unary_bufs_sub .., binary_bufs_sub ..,
   -- degrees
   nullary_bufs_sub .., unary_bufs_sub .., unary_bufs_sub .., ternary_bufs_sub ..,
   -- inverse square roots
   nullary_bufs_sub .., unary_bufs_sub .., binary_bufs_sub .., unary_bufs_sub .., nullary_bufs_sub .., unary_bufs_sub ..,
   ternary_bufs_sub ..,
   -- first factor
   nullary_bufs_sub .., unary_bufs_sub .., binary_bufs_sub .., nullary_bufs_sub .., unary_bufs_sub .., binary_bufs_sub ..,
   ternary_bufs_sub .., unary_bufs_sub .., binary_bufs_sub .., binary_bufs_sub ..,
   -- second factor
   nullary_bufs_sub .., unary_bufs_sub .., binary_bufs_sub .., nullary_bufs_sub .., unary_bufs_sub .., binary_bufs_sub ..,
   ternary_bufs_sub .., unary_bufs_sub .., binary_bufs_sub .., binary_bufs_sub ..,
   -- first step
   nullary_bufs_sub .., unary_bufs_sub .., binary_bufs_sub .., nullary_bufs_sub .., unary_bufs_sub .., binary_bufs_sub ..,
   ternary_bufs_sub .., unary_bufs_sub .., binary_bufs_sub .., unary_bufs_sub .., unary_bufs_sub .., binary_bufs_sub ..,
   nullary_bufs_sub .., unary_bufs_sub .., unary_bufs_sub .., ternary_bufs_sub ..,
   -- second step
   nullary_bufs_sub .., unary_bufs_sub .., binary_bufs_sub .., nullary_bufs_sub .., unary_bufs_sub .., binary_bufs_sub ..,
   ternary_bufs_sub .., unary_bufs_sub .., binary_bufs_sub .., unary_bufs_sub .., unary_bufs_sub .., binary_bufs_sub ..,
   nullary_bufs_sub .., unary_bufs_sub .., unary_bufs_sub .., ternary_bufs_sub ..,
   -- projection
   unary_bufs_sub .., binary_bufs_sub .., unary_bufs_sub .., unary_bufs_sub .., binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Run

end
-- ==== Proof.RefValue.lean ====
/-
  What the reference program's line leaves in its result buffer, as one term of the shared chain.

  From ANY contents V of the device's buffers, after the ninety-nine operations the result buffer holds
  'propagate' of the elu-clamped weights, the features and the edge list, contracted against the transposed
  projection matrix, plus the bias broadcast over the rows; and the five argument buffers hold what they held.
  The line is read in three stretches — the clamp, the graph with its degrees, the rest — each "for any contents",
  and the three are composed.
-/
import proofs.«121173_j46316927320539_1_alg».proof.Proof.RefRun
import proofs.«121173_j46316927320539_1_alg».proof.Proof.Spec

noncomputable section

namespace Cert.ReferenceIdeal.RefValue

open Cert.ReferenceIdeal Cert.ReferenceIdeal.Facts₀ Cert.ReferenceIdeal.Run Idealize.ShloMosaic Idealize.ShloMosaic.TcCoe Idealize.SL.Sem Idealize.ShloMosaic.StableHlo

variable {F : FTy → Type} [FloatOps F]
variable [Cert.ReferenceIdeal.Facts]

def dimsR : Cert.Spec.Dims := ⟨scatter_S50000_S850000x1_S850000_n_0_0_1, gather_S50000_S850000x1_S850000_n_0_n_n_0_1_1, gather_S50000x256_S850000x1_S850000x256_1_0_n_n_0_1_1256, scatter_S50000x256_S850000x1_S850000x256_1_0_0_1⟩

theorem factsR : Cert.Spec.ShapeFacts := ⟨slices_S2x800000_S1x800000_0_0, slices_S2x800000_S1x800000_1_0, shapeCasts_S1x800000_S800000, concatenates_S800000_S50000_S850000_d0, bcast_S_S50000, bcast_S850000_S850000x1_0, bcast_S_S850000, bcast_S850000x1_S850000x256_0_1, bcast_S_S50000x256⟩

theorem after_append (l₁ l₂ : List (HloOp τ sig (Elt F))) (V : Valuation τ sig (Elt F)) :
    after (l₁ ++ l₂) V = after l₂ (after l₁ V) := by
  induction l₁ generalizing V with
  | nil => rfl
  | cons op l ih => exact ih _

theorem after_take_drop (n : Nat) (l : List (HloOp τ sig (Elt F))) (V : Valuation τ sig (Elt F)) :
    after l V = after (l.drop n) (after (l.take n) V) := by
  rw [← after_append, List.take_append_drop]

/-! ## The line in three stretches

The first twenty-one operations clamp the weights; the next twenty-one lay out the graph with its self loops and
take the degrees and their guarded inverse square roots; the remaining fifty-seven form the edge coefficients,
take the two propagation steps and project. -/

/-- The clamp: @elu's operations and the selection on its sign. -/
abbrev opsA : List (HloOp τ sig (Elt F)) := (ops (F := F)).take 21
/-- Sources, targets and weights with the self loops; degrees; guarded inverse square roots. -/
abbrev opsB : List (HloOp τ sig (Elt F)) := ((ops (F := F)).drop 21).take 21
/-- Coefficients, two steps, projection. -/
abbrev opsT : List (HloOp τ sig (Elt F)) := ((ops (F := F)).drop 21).drop 21

theorem ops_split (V : Valuation τ sig (Elt F)) :
    after ops V = after opsT (after opsB (after opsA V)) := by
  rw [after_take_drop 21 ops V, after_take_drop 21 ((ops (F := F)).drop 21) _]

/-! ### The clamp -/

set_option maxHeartbeats 1000000 in
/-- After the first stretch the clamped-weights buffer holds the weights clamped by the sign of their elu. -/
theorem A_v3 (V : Valuation τ sig (Elt F)) :
    after opsA V (main_v3 : DevRef τ sig) = Cert.Spec.clampElu bcast_S_S800000 (V (main_arg2 : DevRef τ sig)) := by
  simp only [opsA, ops, List.take_succ_cons, List.take_zero]
  after_results_simp
  rfl

set_option maxHeartbeats 1000000 in
theorem A_arg0 (V : Valuation τ sig (Elt F)) : after opsA V (main_arg0 : DevRef τ sig) = V (main_arg0 : DevRef τ sig) := by
  simp only [opsA, ops, List.take_succ_cons, List.take_zero]
  after_results_simp

set_option maxHeartbeats 1000000 in
theorem A_arg1 (V : Valuation τ sig (Elt F)) : after opsA V (main_arg1 : DevRef τ sig) = V (main_arg1 : DevRef τ sig) := by
  simp only [opsA, ops, List.take_succ_cons, List.take_zero]
  after_results_simp

set_option maxHeartbeats 1000000 in
theorem A_arg2 (V : Valuation τ sig (Elt F)) : after opsA V (main_arg2 : DevRef τ sig) = V (main_arg2 : DevRef τ sig) := by
  simp only [opsA, ops, List.take_succ_cons, List.take_zero]
  after_results_simp

set_option maxHeartbeats 1000000 in
theorem A_arg3 (V : Valuation τ sig (Elt F)) : after opsA V (main_arg3 : DevRef τ sig) = V (main_arg3 : DevRef τ sig) := by
  simp only [opsA, ops, List.take_succ_cons, List.take_zero]
  after_results_simp

set_option maxHeartbeats 1000000 in
theorem A_arg4 (V : Valuation τ sig (Elt F)) : after opsA V (main_arg4 : DevRef τ sig) = V (main_arg4 : DevRef τ sig) := by
  simp only [opsA, ops, List.take_succ_cons, List.take_zero]
  after_results_simp

/-! ### The graph, the degrees and their inverse square roots

Three concatenations are here: the sources, the targets and the weights each get their self loops. -/

attribute [local irreducible] Host.gather Host.scatterAdd concatenate in
set_option maxHeartbeats 1000000 in
/-- The sources buffer: the first row of the edge list, then one self loop per node. -/
theorem B_v7 (W : Valuation τ sig (Elt F)) :
    after opsB W (main_v7 : DevRef τ sig) = Cert.Spec.src factsR (W (main_arg1 : DevRef τ sig)) := by
  simp only [opsB, ops, List.drop_succ_cons, List.drop_zero, List.take_succ_cons, List.take_zero]
  after_results
  rfl

attribute [local irreducible] Host.gather Host.scatterAdd concatenate in
set_option maxHeartbeats 1000000 in
/-- The targets buffer: the second row of the edge list, then one self loop per node. -/
theorem B_v10 (W : Valuation τ sig (Elt F)) :
    after opsB W (main_v10 : DevRef τ sig) = Cert.Spec.dst factsR (W (main_arg1 : DevRef τ sig)) := by
  simp only [opsB, ops, List.drop_succ_cons, List.drop_zero, List.take_succ_cons, List.take_zero]
  after_results
  rfl

attribute [local irreducible] Host.gather Host.scatterAdd concatenate in
set_option maxHeartbeats 1000000 in
/-- The weights buffer: what the clamped-weights buffer held, then weight one on every self loop. -/
theorem B_v12 (W : Valuation τ sig (Elt F)) :
    after opsB W (main_v12 : DevRef τ sig) = Cert.Spec.wts factsR (W (main_v3 : DevRef τ sig)) := by
  simp only [opsB, ops, List.drop_succ_cons, List.drop_zero, List.take_succ_cons, List.take_zero]
  after_results
  rfl

attribute [local irreducible] Host.gather Host.scatterAdd concatenate in
set_option maxHeartbeats 1000000 in
/-- The guarded inverse square roots of the degrees, the degrees being the weights summed at the targets. -/
theorem B_v19 (W : Valuation τ sig (Elt F)) :
    after opsB W (main_v19 : DevRef τ sig)
      = Cert.Spec.dis dimsR factsR (W (main_v3 : DevRef τ sig)) (W (main_arg1 : DevRef τ sig)) := by
  simp only [opsB, ops, List.drop_succ_cons, List.drop_zero, List.take_succ_cons, List.take_zero]
  after_results
  rfl

set_option maxHeartbeats 1000000 in
theorem B_arg0 (W : Valuation τ sig (Elt F)) : after opsB W (main_arg0 : DevRef τ sig) = W (main_arg0 : DevRef τ sig) := by
  simp only [opsB, ops, List.drop_succ_cons, List.drop_zero, List.take_succ_cons, List.take_zero]
  after_results_simp

set_option maxHeartbeats 1000000 in
theorem B_arg1 (W : Valuation τ sig (Elt F)) : after opsB W (main_arg1 : DevRef τ sig) = W (main_arg1 : DevRef τ sig) := by
  simp only [opsB, ops, List.drop_succ_cons, List.drop_zero, List.take_succ_cons, List.take_zero]
  after_results_simp

set_option maxHeartbeats 1000000 in
theorem B_arg2 (W : Valuation τ sig (Elt F)) : after opsB W (main_arg2 : DevRef τ sig) = W (main_arg2 : DevRef τ sig) := by
  simp only [opsB, ops, List.drop_succ_cons, List.drop_zero, List.take_succ_cons, List.take_zero]
  after_results_simp

set_option maxHeartbeats 1000000 in
theorem B_arg3 (W : Valuation τ sig (Elt F)) : after opsB W (main_arg3 : DevRef τ sig) = W (main_arg3 : DevRef τ sig) := by
  simp only [opsB, ops, List.drop_succ_cons, List.drop_zero, List.take_succ_cons, List.take_zero]
  after_results_simp

set_option maxHeartbeats 1000000 in
theorem B_arg4 (W : Valuation τ sig (Elt F)) : after opsB W (main_arg4 : DevRef τ sig) = W (main_arg4 : DevRef τ sig) := by
  simp only [opsB, ops, List.drop_succ_cons, List.drop_zero, List.take_succ_cons, List.take_zero]
  after_results_simp

/-! ### Coefficients, two steps, projection

No concatenation is left: from a valuation whose sources, targets, weights and inverse roots are the shared chain's
terms, the result buffer is the projection of two propagation steps. -/

attribute [local irreducible] Host.gather Host.scatterAdd concatenate in
set_option maxRecDepth 8192 in
set_option maxHeartbeats 4000000 in
theorem T_v66 (W : Valuation τ sig (Elt F)) (ew : FVec F Cert.Spec.S800000 .f32) (ei : IVec Cert.Spec.S2x800000 32)
    (x : FVec F Cert.Spec.S50000x256 .f32)
    (h7 : W (main_v7 : DevRef τ sig) = Cert.Spec.src factsR ei)
    (h10 : W (main_v10 : DevRef τ sig) = Cert.Spec.dst factsR ei)
    (h12 : W (main_v12 : DevRef τ sig) = Cert.Spec.wts factsR ew)
    (h19 : W (main_v19 : DevRef τ sig) = Cert.Spec.dis dimsR factsR ew ei)
    (h0 : W (main_arg0 : DevRef τ sig) = x) :
    after opsT W (main_v66 : DevRef τ sig)
      = addf (Host.dotGeneral dot_S50000x256_S256x128_S50000x128_1_0_0_1_n_n none
                (Cert.Spec.propagate dimsR factsR ew x ei)
                (transpose S256x128 [1, 0] (W (main_arg3 : DevRef τ sig)) transposes_S128x256_S256x128_1_0))
             (broadcastInDim S50000x128 ![0, 1] bcast_S1x128_S50000x128_0_1
                (broadcastInDim S1x128 ![1] bcast_S128_S1x128_1 (W (main_arg4 : DevRef τ sig)))) := by
  simp only [opsT, ops, List.drop_succ_cons, List.drop_zero]
  after_results_simp
  rw [h7, h10, h12, h19, h0]
  rfl

set_option maxHeartbeats 4000000 in
theorem T_arg0 (W : Valuation τ sig (Elt F)) : after opsT W (main_arg0 : DevRef τ sig) = W (main_arg0 : DevRef τ sig) := by
  simp only [opsT, ops, List.drop_succ_cons, List.drop_zero]
  after_results_simp

set_option maxHeartbeats 4000000 in
theorem T_arg1 (W : Valuation τ sig (Elt F)) : after opsT W (main_arg1 : DevRef τ sig) = W (main_arg1 : DevRef τ sig) := by
  simp only [opsT, ops, List.drop_succ_cons, List.drop_zero]
  after_results_simp

set_option maxHeartbeats 4000000 in
theorem T_arg2 (W : Valuation τ sig (Elt F)) : after opsT W (main_arg2 : DevRef τ sig) = W (main_arg2 : DevRef τ sig) := by
  simp only [opsT, ops, List.drop_succ_cons, List.drop_zero]
  after_results_simp

set_option maxHeartbeats 4000000 in
theorem T_arg3 (W : Valuation τ sig (Elt F)) : after opsT W (main_arg3 : DevRef τ sig) = W (main_arg3 : DevRef τ sig) := by
  simp only [opsT, ops, List.drop_succ_cons, List.drop_zero]
  after_results_simp

set_option maxHeartbeats 4000000 in
theorem T_arg4 (W : Valuation τ sig (Elt F)) : after opsT W (main_arg4 : DevRef τ sig) = W (main_arg4 : DevRef τ sig) := by
  simp only [opsT, ops, List.drop_succ_cons, List.drop_zero]
  after_results_simp

/-! ## The whole line -/

/-- The result buffer after the operations, from ANY contents V, is the host projection of the propagated features of the elu-clamped weights. -/
theorem out_eq (V : Valuation τ sig (Elt F)) :
    after ops V (main_v66 : DevRef τ sig)
      = addf (Host.dotGeneral dot_S50000x256_S256x128_S50000x128_1_0_0_1_n_n none
                (Cert.Spec.propagate dimsR factsR (Cert.Spec.clampElu bcast_S_S800000 (V (main_arg2 : DevRef τ sig))) (V (main_arg0 : DevRef τ sig)) (V (main_arg1 : DevRef τ sig)))
                (transpose S256x128 [1, 0] (V (main_arg3 : DevRef τ sig)) transposes_S128x256_S256x128_1_0))
             (broadcastInDim S50000x128 ![0, 1] bcast_S1x128_S50000x128_0_1 (broadcastInDim S1x128 ![1] bcast_S128_S1x128_1 (V (main_arg4 : DevRef τ sig)))) := by
  have h7 : after opsB (after opsA V) (main_v7 : DevRef τ sig) = Cert.Spec.src factsR (V (main_arg1 : DevRef τ sig)) := by
    rw [B_v7, A_arg1]
  have h10 : after opsB (after opsA V) (main_v10 : DevRef τ sig) = Cert.Spec.dst factsR (V (main_arg1 : DevRef τ sig)) := by
    rw [B_v10, A_arg1]
  have h12 : after opsB (after opsA V) (main_v12 : DevRef τ sig)
      = Cert.Spec.wts factsR (Cert.Spec.clampElu bcast_S_S800000 (V (main_arg2 : DevRef τ sig))) := by
    rw [B_v12, A_v3]
  have h19 : after opsB (after opsA V) (main_v19 : DevRef τ sig)
      = Cert.Spec.dis dimsR factsR (Cert.Spec.clampElu bcast_S_S800000 (V (main_arg2 : DevRef τ sig))) (V (main_arg1 : DevRef τ sig)) := by
    rw [B_v19, A_v3, A_arg1]
  have h0 : after opsB (after opsA V) (main_arg0 : DevRef τ sig) = V (main_arg0 : DevRef τ sig) := by
    rw [B_arg0, A_arg0]
  rw [ops_split, T_v66 _ _ _ _ h7 h10 h12 h19 h0, B_arg3, A_arg3, B_arg4, A_arg4]

theorem arg0_eq (V : Valuation τ sig (Elt F)) : after ops V (main_arg0 : DevRef τ sig) = V (main_arg0 : DevRef τ sig) := by
  rw [ops_split, T_arg0, B_arg0, A_arg0]

theorem arg1_eq (V : Valuation τ sig (Elt F)) : after ops V (main_arg1 : DevRef τ sig) = V (main_arg1 : DevRef τ sig) := by
  rw [ops_split, T_arg1, B_arg1, A_arg1]

theorem arg2_eq (V : Valuation τ sig (Elt F)) : after ops V (main_arg2 : DevRef τ sig) = V (main_arg2 : DevRef τ sig) := by
  rw [ops_split, T_arg2, B_arg2, A_arg2]

theorem arg3_eq (V : Valuation τ sig (Elt F)) : after ops V (main_arg3 : DevRef τ sig) = V (main_arg3 : DevRef τ sig) := by
  rw [ops_split, T_arg3, B_arg3, A_arg3]

theorem arg4_eq (V : Valuation τ sig (Elt F)) : after ops V (main_arg4 : DevRef τ sig) = V (main_arg4 : DevRef τ sig) := by
  rw [ops_split, T_arg4, B_arg4, A_arg4]

end Cert.ReferenceIdeal.RefValue

end
-- ==== Proof.ClampLaw.lean ====
/-
  The two clamps agree on the extended reals. For every extended real `w`: if `w > 0` then `elu w = w > 0`, so neither
  side replaces it; if `w ≤ 0` then `elu w = 1 · (eʷ − 1) ≤ 0` (with `e^(−∞) = 0`), so both sides put the constant.
  The kernel clamps the weights laid out as 6250×128 and lays the result out flat again; a clamp is pointwise, so the
  two changes of layout cancel.
-/
import proofs.«121173_j46316927320539_1_alg».proof.Proof.Spec
import Idealize.ShloMosaic.Lib.Pipeline.Value
import Idealize.ShloMosaic.Lib.IdealHost
import Mathlib.Analysis.Complex.Exponential
import Mathlib.Data.EReal.Operations

set_option maxRecDepth 16384

noncomputable section

namespace Cert.Spec

open Idealize.ShloMosaic Idealize.ShloMosaic.ValueIdx

/-- On the extended reals `eˣ − 1 ≤ 0` for every `x ≤ 0`: at `−∞` it is `0 − 1`, at a real `r ≤ 0` it is `eʳ − 1` with
    `eʳ ≤ 1`, and `+∞` is not `≤ 0`. -/
theorem exp_sub_one_nonpos (x : EReal) (h : x ≤ 0) : Ideal.exp x - 1 ≤ 0 := by
  induction x using EReal.rec with
  | bot =>
    rw [Ideal.exp_bot, zero_sub, ← EReal.coe_one, ← EReal.coe_neg, ← EReal.coe_zero, EReal.coe_le_coe_iff]
    norm_num
  | coe r =>
    have hr : r ≤ 0 := by exact_mod_cast h
    have he : Real.exp r ≤ 1 := Real.exp_le_one_iff.mpr hr
    rw [Ideal.exp_coe, ← EReal.coe_one, ← EReal.coe_sub, ← EReal.coe_zero, EReal.coe_le_coe_iff]
    linarith
  | top => exact absurd h (by simp)

/-- The scalar law: keeping `x` where `x > 0` and putting `c` elsewhere is putting `c` where `elu x ≤ 0` and keeping
    `x` elsewhere. For `x > 0`, `elu x = x` is not `≤ 0`; for `x ≤ 0`, `elu x = 1 · (eˣ − 1) ≤ 0`. -/
theorem clamp_scalar (x c : EReal) :
    Scalar.select (Ideal.cmp .ogt x 0) x c
      = Scalar.select (Ideal.cmp .ole
          (Scalar.select (Ideal.cmp .ogt x 0) x (1 * (Ideal.exp (Scalar.select (Ideal.cmp .ogt x 0) 0 x) - 1))) 0) c x := by
  by_cases hx : 0 < x
  · have e1 : Ideal.cmp .ogt x 0 = 1#1 := by
      show BitVec.ofBool (decide (0 < x)) = 1#1
      rw [decide_eq_true hx]; rfl
    have e2 : Ideal.cmp .ole x 0 = 0#1 := by
      show BitVec.ofBool (decide (x ≤ 0)) = 0#1
      rw [decide_eq_false (not_le.mpr hx)]; rfl
    rw [e1, select_one, select_one, e2, select_zero]
  · have e1 : Ideal.cmp .ogt x 0 = 0#1 := by
      show BitVec.ofBool (decide (0 < x)) = 0#1
      rw [decide_eq_false hx]; rfl
    have hle : (1 : EReal) * (Ideal.exp x - 1) ≤ 0 := by
      rw [one_mul]; exact exp_sub_one_nonpos x (not_lt.mp hx)
    have e2 : Ideal.cmp .ole ((1 : EReal) * (Ideal.exp x - 1)) 0 = 1#1 := by
      show BitVec.ofBool (decide ((1 : EReal) * (Ideal.exp x - 1) ≤ 0)) = 1#1
      rw [decide_eq_true hle]; rfl
    rw [e1, select_zero, select_zero, select_zero, e2, select_one]

/-- Clamping by the sign of the weight, through the 6250×128 layout and back, is clamping by the sign of its `elu`. -/
theorem clamp_eq (hb : S_.BroadcastsInDim S800000 (![] : Fin 0 → Fin S800000.rank))
    (h1 : S800000.ShapeCasts S6250x128) (h2 : S6250x128.ShapeCasts S800000) (w : FVec Ideal S800000 .f32) :
    shapeCast S800000 (clampPos (F := Ideal) (shapeCast S6250x128 w h1)) h2 = clampElu (F := Ideal) hb w := by
  -- a clamp is pointwise, so it commutes with the change of layout, and the two changes of layout cancel
  have e : clampPos (F := Ideal) (shapeCast S6250x128 w h1) = shapeCast S6250x128 (clampPos (F := Ideal) w) h1 := rfl
  rw [e, shapeCast_shapeCast]
  funext i
  -- both sides at an index, as scalar operations on the weight there
  show Scalar.select (Ideal.cmp .ogt (w i) (Ideal.ofBits .f32 0x00000000#32)) (w i) (Ideal.ofBits .f32 0x33D6BF95#32)
    = Scalar.select (Ideal.cmp .ole
        (Scalar.select (Ideal.cmp .ogt (w i) (Ideal.ofBits .f32 0x00000000#32)) (w i)
          (Ideal.ofBits .f32 0x3F800000#32
            * (Ideal.exp (Scalar.select (Ideal.cmp .ogt (w i) (Ideal.ofBits .f32 0x00000000#32))
                (Ideal.ofBits .f32 0x00000000#32) (w i)) - 1)))
        (Ideal.ofBits .f32 0x00000000#32)) (Ideal.ofBits .f32 0x33D6BF95#32) (w i)
  rw [Ideal.ofBits_zero_f32, Ideal.ofBits_one_f32]
  exact clamp_scalar (w i) _

end Cert.Spec

end
-- ==== Proof.ProjLaw.lean ====
/-
  The host's projection read index by index at the exact instance: a `dot_general` contracting axis 1 of `h` with
  axis 0 of `Wᵀ` is `∑ k, h i k · Wᵀ k j`, and the bias broadcast first to a row and then down the rows adds `b j`.
-/
import proofs.«121173_j46316927320539_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.Spec

open Idealize.ShloMosaic Idealize.ShloMosaic.ValueIdx

/-- The contraction record of `h · Wᵀ`: axis 1 of the left against axis 0 of the right. -/
abbrev dotHW (wf : DotDims.WF S50000x256 S256x128 S50000x128 [1] [0] [0] [1] [] []) : DotDims S50000x256 S256x128 S50000x128 where
  lhsContracting := [1]
  rhsContracting := [0]
  lhsNonContracting := [0]
  rhsNonContracting := [1]
  lhsBatch := []
  rhsBatch := []
  wf := wf

/-! ## The operand indices of the contraction, axis by axis

The contracted shape has one axis, of extent 256. At result index `j` and contraction index `k` the left operand is read
at `(j 0, k)` and the right operand at `(k, j 1)`: one statement per operand axis. -/

section Axes
variable (wf : DotDims.WF S50000x256 S256x128 S50000x128 [1] [0] [0] [1] [] [])

/-- One axis is contracted. -/
theorem dotHW_rank : (dotHW wf).contr.rank = 1 := rfl

/-- Its extent is the left operand's axis 1, 256. -/
theorem dotHW_size : (dotHW wf).contr.size ⟨0, by rw [dotHW_rank]; exact Nat.one_pos⟩ = 256 := rfl

/-- Left operand, axis 0 (kept): the result's row. -/
theorem dotHW_lhs0 (j : S50000x128.Idx) (k : (dotHW wf).contr.Idx) :
    ((dotHW wf).lhsIdx j k 0).val = (j 0).val := rfl

/-- Left operand, axis 1 (contracted): the contraction coordinate. -/
theorem dotHW_lhs1 (j : S50000x128.Idx) (k : (dotHW wf).contr.Idx) :
    ((dotHW wf).lhsIdx j k 1).val = (k ⟨0, by rw [dotHW_rank]; exact Nat.one_pos⟩).val :=
  (dotHW wf).lhsIdx_val_of_single rfl j k

/-- Right operand, axis 0 (contracted): the contraction coordinate. -/
theorem dotHW_rhs0 (j : S50000x128.Idx) (k : (dotHW wf).contr.Idx) :
    ((dotHW wf).rhsIdx j k 0).val = (k ⟨0, by rw [dotHW_rank]; exact Nat.one_pos⟩).val :=
  (dotHW wf).rhsIdx_val_of_single rfl j k

/-- Right operand, axis 1 (kept): the result's column. -/
theorem dotHW_rhs1 (j : S50000x128.Idx) (k : (dotHW wf).contr.Idx) :
    ((dotHW wf).rhsIdx j k 1).val = (j 1).val := rfl

end Axes

/-- The contraction read at the point `(p, q)`: the sum over the shared axis of `h p k · Wᵀ k q`. At the exact instance the
    product is the plain sum over the contraction's index set; that set is in bijection with `Fin 256` through its one
    coordinate, and under the bijection the two operand indices are `(p, k)` and `(k, q)` by the four axis statements. -/
theorem dotHW_apply (wf : DotDims.WF S50000x256 S256x128 S50000x128 [1] [0] [0] [1] [] [])
    (hh : FVec Ideal S50000x256 .f32) (wt : FVec Ideal S256x128 .f32) (p : Fin 50000) (q : Fin 128) :
    Host.dotGeneral (dotHW wf) none hh wt (ix2 p q) = ∑ k : Fin 256, hh (ix2 p k) * wt (ix2 k q) := by
  refine (Ideal.dotGeneral_apply (dotHW wf) none .single hh wt (ix2 p q)).trans ?_
  rw [← Equiv.sum_comp (contrEquiv1 (dotHW wf) 256 (dotHW_rank wf) (dotHW_size wf)).symm]
  refine Finset.sum_congr rfl fun k _ => ?_
  have hk := contrEquiv1_symm_val (dotHW wf) 256 (dotHW_rank wf) (dotHW_size wf) k
  have hl : (dotHW wf).lhsIdx (ix2 p q) ((contrEquiv1 (dotHW wf) 256 (dotHW_rank wf) (dotHW_size wf)).symm k) = ix2 p k := by
    funext a
    match a with
    | ⟨0, _⟩ => exact Fin.ext (dotHW_lhs0 wf _ _)
    | ⟨1, _⟩ => exact Fin.ext ((dotHW_lhs1 wf _ _).trans hk)
  have hr : (dotHW wf).rhsIdx (ix2 p q) ((contrEquiv1 (dotHW wf) 256 (dotHW_rank wf) (dotHW_size wf)).symm k) = ix2 k q := by
    funext a
    match a with
    | ⟨0, _⟩ => exact Fin.ext ((dotHW_rhs0 wf _ _).trans hk)
    | ⟨1, _⟩ => exact Fin.ext (dotHW_rhs1 wf _ _)
  rw [hl, hr]

/-- The bias, broadcast to a `[1, 128]` row and then down the 50000 rows, read at the point `(p, q)`: the outer broadcast
    reads the row at `(0, q)` (axis 0 of the row has extent one, axis 1 follows the column), the inner one reads `b` at
    `q` (its one axis follows the row's axis 1). -/
theorem bias_apply (hb1 : S128.BroadcastsInDim S1x128 (![1] : Fin 1 → Fin S1x128.rank))
    (hb2 : S1x128.BroadcastsInDim S50000x128 (![0, 1] : Fin 2 → Fin S50000x128.rank))
    (b : FVec Ideal S128 .f32) (p : Fin 50000) (q : Fin 128) :
    broadcastInDim S50000x128 ![0, 1] hb2 (broadcastInDim S1x128 ![1] hb1 b) (ix2 p q) = b (ix1 q) := by
  refine (broadcastInDim_apply (![0, 1] : Fin 2 → Fin S50000x128.rank) hb2 _ (ix2 p q) (ix2 (0 : Fin 1) q) ?_).trans ?_
  · intro a
    match a with
    | ⟨0, _⟩ => rfl
    | ⟨1, _⟩ => rfl
  · refine broadcastInDim_apply (![1] : Fin 1 → Fin S1x128.rank) hb1 b (ix2 (0 : Fin 1) q) (ix1 q) ?_
    intro a
    match a with
    | ⟨0, _⟩ => rfl

/-- The host's `h · Wᵀ + b` is the index-wise projection. -/
theorem host_project (wf : DotDims.WF S50000x256 S256x128 S50000x128 [1] [0] [0] [1] [] [])
    (hb1 : S128.BroadcastsInDim S1x128 (![1] : Fin 1 → Fin S1x128.rank))
    (hb2 : S1x128.BroadcastsInDim S50000x128 (![0, 1] : Fin 2 → Fin S50000x128.rank))
    (hh : FVec Ideal S50000x256 .f32) (wt : FVec Ideal S256x128 .f32) (b : FVec Ideal S128 .f32) :
    addf (Host.dotGeneral (dotHW wf) none hh wt) (broadcastInDim S50000x128 ![0, 1] hb2 (broadcastInDim S1x128 ![1] hb1 b))
      = project hh wt b := by
  -- Point by point: split the index into its row p and column q; the sum at a point is the sum of the two reads,
  -- and the specification at (p, q) is the same expression.
  funext i
  obtain ⟨p, q, rfl⟩ : ∃ (p : Fin 50000) (q : Fin 128), i = ix2 p q := ⟨i 0, i 1, eq_ix2 i⟩
  rw [addf_apply, dotHW_apply wf hh wt p q, bias_apply hb1 hb2 b p q]
  rfl

end Cert.Spec

end
-- ==== Proof.Bridge.lean ====
/-
  The two results are one function. The reference's result term — the host projection of the propagated features of
  the elu-clamped weights — equals the kernel's — the index-wise projection of the propagated features of the weights
  clamped by sign through the 6250×128 layout — by three facts: the two clamps agree on the extended reals (the clamp
  law), the chain between them is the same function once the two programs' dimension records are seen to be the same
  records, and the host's contraction plus broadcast bias IS the index-wise projection (the projection law).
-/
import proofs.«121173_j46316927320539_1_alg».proof.Proof.KernelValue
import proofs.«121173_j46316927320539_1_alg».proof.Proof.RefValue
import proofs.«121173_j46316927320539_1_alg».proof.Proof.ClampLaw
import proofs.«121173_j46316927320539_1_alg».proof.Proof.ProjLaw

set_option maxRecDepth 16384

noncomputable section

namespace Cert.Bridge

open Idealize.ShloMosaic

/-- The two programs print the same four dimension records. -/
theorem dims_eq : Cert.ReferenceIdeal.RefValue.dimsR = Cert.KernelIdeal.Host.dimsK := rfl

/-- The reference's result term is the kernel's result function of the same five arrays. -/
theorem result_eq (x : FVec Ideal Cert.Spec.S50000x256 .f32) (ei : IVec Cert.Spec.S2x800000 32) (ew : FVec Ideal Cert.Spec.S800000 .f32)
    (w : FVec Ideal Cert.Spec.S128x256 .f32) (b : FVec Ideal Cert.Spec.S128 .f32) :
    addf (Host.dotGeneral Cert.ReferenceIdeal.dot_S50000x256_S256x128_S50000x128_1_0_0_1_n_n none
            (Cert.Spec.propagate Cert.ReferenceIdeal.RefValue.dimsR Cert.ReferenceIdeal.RefValue.factsR
              (Cert.Spec.clampElu Cert.ReferenceIdeal.Facts₀.bcast_S_S800000 ew) x ei)
            (transpose Cert.ReferenceIdeal.S256x128 [1, 0] w Cert.ReferenceIdeal.Facts₀.transposes_S128x256_S256x128_1_0))
         (broadcastInDim Cert.ReferenceIdeal.S50000x128 ![0, 1] Cert.ReferenceIdeal.Facts₀.bcast_S1x128_S50000x128_0_1
            (broadcastInDim Cert.ReferenceIdeal.S1x128 ![1] Cert.ReferenceIdeal.Facts₀.bcast_S128_S1x128_1 b))
      = Cert.KernelIdeal.Value.result x ei ew w b := by
  unfold Cert.KernelIdeal.Value.result
  rw [Cert.Spec.clamp_eq Cert.ReferenceIdeal.Facts₀.bcast_S_S800000 _ _ ew, ← dims_eq]
  exact Cert.Spec.host_project Cert.ReferenceIdeal.Facts₀.dot_S50000x256_S256x128_S50000x128_1_0_0_1_n_n_wf _ _ _ _ _

end Cert.Bridge

end
-- ==== Proof.lean ====
/-
  The certificate of the two-hop graph convolution: a Pallas program (a clamp kernel on the edge weights, host
  gathers and scatter-adds for the normalisation and the two propagation steps, a blocked projection kernel on the
  matrix unit) against its plain reference, over the extended reals.

  Frames. The kernel program's two frames are the generated ones. The reference has no kernel: its frame is its run —
  @main as one straight line of host operations — with the results dropped.

  Preserves. The idealization rewrote nothing, so there is nothing to state.

  Algebraic. Both programs end with their result at one function of the five argument arrays (`Value.result`):
  the kernel program by reading its run backwards through the two regions and the host stretches between them, the
  reference by reading its straight line; the two readings meet in the clamp law (a weight's sign is the sign of its
  `elu`), the shared propagation chain carried as one function, and the projection law (a contraction plus a
  broadcast bias, index by index).
-/
import proofs.«121173_j46316927320539_1_alg».proof.Defs
import proofs.«121173_j46316927320539_1_alg».proof.Proof.Gen.Kernel
import proofs.«121173_j46316927320539_1_alg».proof.Proof.Gen.Kernel.Frame
import proofs.«121173_j46316927320539_1_alg».proof.Proof.Gen.KernelIdeal
import proofs.«121173_j46316927320539_1_alg».proof.Proof.Gen.KernelIdeal.Frame
import proofs.«121173_j46316927320539_1_alg».proof.Proof.Gen.ReferenceIdeal
import proofs.«121173_j46316927320539_1_alg».proof.Proof.Gen.Pre_finite_inputs
import proofs.«121173_j46316927320539_1_alg».proof.Proof.KernelIdealRun
import proofs.«121173_j46316927320539_1_alg».proof.Proof.KernelValue
import proofs.«121173_j46316927320539_1_alg».proof.Proof.RefRun
import proofs.«121173_j46316927320539_1_alg».proof.Proof.RefValue
import proofs.«121173_j46316927320539_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference's run, its results dropped: each argument buffer is written by no operation of the line. -/
theorem frame_ri : Cert.frame_ReferenceIdeal := fun m ρ _ =>
  (θ_run Cert.ReferenceIdeal.defs _ _).mono
    (fun r h c =>
      ⟨(h c Cert.ReferenceIdeal.main_arg0).trans (Cert.ReferenceIdeal.RefValue.arg0_eq _),
       (h c Cert.ReferenceIdeal.main_arg1).trans (Cert.ReferenceIdeal.RefValue.arg1_eq _),
       (h c Cert.ReferenceIdeal.main_arg2).trans (Cert.ReferenceIdeal.RefValue.arg2_eq _),
       (h c Cert.ReferenceIdeal.main_arg3).trans (Cert.ReferenceIdeal.RefValue.arg3_eq _),
       (h c Cert.ReferenceIdeal.main_arg4).trans (Cert.ReferenceIdeal.RefValue.arg4_eq _)⟩)
    (Cert.ReferenceIdeal.Run.run_main (F := Ideal) m ρ)

theorem preserves : Cert.preserves_Kernel_KernelIdeal := trivial

/-- Both runs end at `Value.result` of arguments that agree. -/
theorem algebraic : Cert.algebraic_KernelIdeal_ReferenceIdeal := by
  intro m ρ m' ρ' _ hagree
  refine ⟨fun c => Cert.KernelIdeal.Value.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Value.result_eq m ρ c), (h c).2⟩)
      (Cert.KernelIdeal.Run.run_main (F := Ideal) m ρ)
  · refine (θ_run Cert.ReferenceIdeal.defs _ _).mono (fun r h c => ⟨?_,
        (h c Cert.ReferenceIdeal.main_arg0).trans (Cert.ReferenceIdeal.RefValue.arg0_eq _),
        (h c Cert.ReferenceIdeal.main_arg1).trans (Cert.ReferenceIdeal.RefValue.arg1_eq _),
        (h c Cert.ReferenceIdeal.main_arg2).trans (Cert.ReferenceIdeal.RefValue.arg2_eq _),
        (h c Cert.ReferenceIdeal.main_arg3).trans (Cert.ReferenceIdeal.RefValue.arg3_eq _),
        (h c Cert.ReferenceIdeal.main_arg4).trans (Cert.ReferenceIdeal.RefValue.arg4_eq _)⟩)
      (Cert.ReferenceIdeal.Run.run_main (F := Ideal) m' ρ')
    refine ((h c Cert.ReferenceIdeal.main_v66).trans (Cert.ReferenceIdeal.RefValue.out_eq (F := Ideal) _)).trans ?_
    have e0 : launchContents m' c (Cert.ReferenceIdeal.main_arg0 : DevRef Cert.ReferenceIdeal.τ Cert.ReferenceIdeal.sig)
        = m ((c.tc : Thread Cert.KernelIdeal.nD Cert.KernelIdeal.τ).loc Cert.KernelIdeal.main_arg0) := (hagree c).1
    have e1 : launchContents m' c (Cert.ReferenceIdeal.main_arg1 : DevRef Cert.ReferenceIdeal.τ Cert.ReferenceIdeal.sig)
        = m ((c.tc : Thread Cert.KernelIdeal.nD Cert.KernelIdeal.τ).loc Cert.KernelIdeal.main_arg1) := (hagree c).2.1
    have e2 : launchContents m' c (Cert.ReferenceIdeal.main_arg2 : DevRef Cert.ReferenceIdeal.τ Cert.ReferenceIdeal.sig)
        = m ((c.tc : Thread Cert.KernelIdeal.nD Cert.KernelIdeal.τ).loc Cert.KernelIdeal.main_arg2) := (hagree c).2.2.1
    have e3 : launchContents m' c (Cert.ReferenceIdeal.main_arg3 : DevRef Cert.ReferenceIdeal.τ Cert.ReferenceIdeal.sig)
        = m ((c.tc : Thread Cert.KernelIdeal.nD Cert.KernelIdeal.τ).loc Cert.KernelIdeal.main_arg3) := (hagree c).2.2.2.1
    have e4 : launchContents m' c (Cert.ReferenceIdeal.main_arg4 : DevRef Cert.ReferenceIdeal.τ Cert.ReferenceIdeal.sig)
        = m ((c.tc : Thread Cert.KernelIdeal.nD Cert.KernelIdeal.τ).loc Cert.KernelIdeal.main_arg4) := (hagree c).2.2.2.2
    rw [e0, e1, e2, e3, e4]
    exact Cert.Bridge.result_eq _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
